-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S128x128 : Shape := ⟨2, ![128, 128]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S262144x128 .f32) (main_arg1 : FVec F S128x128 .f32) (main_arg2 : FVec F S128x128 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S262144x128 : Shape := ⟨2, ![262144, 128]⟩
abbrev S128x128 : Shape := ⟨2, ![128, 128]⟩
abbrev S1x1 : Shape := ⟨2, ![1, 1]⟩
abbrev S2048x128 : Shape := ⟨2, ![2048, 128]⟩
abbrev S8x128 : Shape := ⟨2, ![8, 128]⟩
abbrev S2048 : Shape := ⟨1, ![2048]⟩
abbrev S2048x1 : Shape := ⟨2, ![2048, 1]⟩
abbrev S1x128 : Shape := ⟨2, ![1, 128]⟩
abbrev S1 : Shape := ⟨1, ![1]⟩
abbrev S_ : Shape := ⟨0, ![]⟩

abbrev nBuf : Space → Nat
  | .hbm => 20
  | .vmem => 7
  | .smem => 0
  | _ => 0

abbrev bufTy : (tb : Table) → Fin (tcTables nBuf tb) → BufTy
  | .hbm, ⟨0, _⟩ => ⟨S262144x128, .f32⟩
  | .hbm, ⟨1, _⟩ => ⟨S128x128, .f32⟩
  | .hbm, ⟨2, _⟩ => ⟨S128x128, .f32⟩
  | .hbm, ⟨3, _⟩ => ⟨S1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S_, .f32⟩
  | .hbm, ⟨12, _⟩ => ⟨S128x128, .f32⟩
  | .hbm, ⟨13, _⟩ => ⟨S128x128, .f32⟩
  | .hbm, ⟨14, _⟩ => ⟨S_, .f32⟩
  | .hbm, ⟨15, _⟩ => ⟨S128x128, .f32⟩
  | .hbm, ⟨16, _⟩ => ⟨S128x128, .f32⟩
  | .hbm, ⟨17, _⟩ => ⟨S128x128, .f32⟩
  | .hbm, ⟨18, _⟩ => ⟨S_, .f32⟩
  | .hbm, ⟨19, _⟩ => ⟨S_, .f32⟩
  | .local _ .vmem, ⟨0, _⟩ => ⟨S2048x128, .f32⟩
  | .local _ .vmem, ⟨1, _⟩ => ⟨S2048x128, .f32⟩
  | .local _ .vmem, ⟨2, _⟩ => ⟨S8x128, .f32⟩
  | .local _ .vmem, ⟨3, _⟩ => ⟨S8x128, .f32⟩
  | .local _ .vmem, ⟨4, _⟩ => ⟨S128x128, .f32⟩
  | .local _ .vmem, ⟨5, _⟩ => ⟨S128x128, .f32⟩
  | .local _ .vmem, ⟨6, _⟩ => ⟨S1x1, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c256_i32 : BitVec 32 := 256#32
  let v1 : BitVec 32 := Scalar.muli v0 c256_i32
  let c32767_i32 : BitVec 32 := 32767#32
  let v2 : BitVec 32 := Scalar.minsi v1 c32767_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  reduces_S2048x128_S2048 : S2048x128.Reduces [1] S2048
  shapeCasts_S2048_S2048x1 : S2048.ShapeCasts S2048x1
  broadcasts_S2048x1_S2048x128 : S2048x1.Broadcasts S2048x128
  rotates_S2048x128_d0 : S2048x128.Rotates 0 none
  iota_S2048x128_d0_w32 : S2048x128.Iotas .tc 32 [0]
  inb_S8x128_S1x128_0_0 : ∀ a, (![0, 0] : Fin 2 → Nat) a + S1x128.size a ≤ S8x128.size a
  h_S1x128 : 0 < S1x128.numel
  shapeCasts_S1x128_S1x128 : S1x128.ShapeCasts S1x128
  broadcasts_S1x128_S2048x128 : S1x128.Broadcasts S2048x128
  reduces_S2048x1_S1 : S2048x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  transposes_S128x128_S128x128_1_0 : S128x128.Transposes [1, 0] S128x128
  bcast_S_S128x128 : S_.BroadcastsInDim S128x128 (![] : Fin 0 → Fin S128x128.rank)
  reducesTo_S128x128_S_d0_1 : S128x128.ReducesTo [0, 1] S_
  h_S_ : 0 < S_.numel
  dot_S2048x128_S128x128_S2048x128_1_0_0_1_n_n_wf : DotDims.WF S2048x128 S128x128 S2048x128 [1] [0] [0] [1] [] []
  dot_S128x128_S128x128_S128x128_1_0_0_1_n_n_wf : DotDims.WF S128x128 S128x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S262144x128.size a
  hwx0_0 : ∀ i : grid0.Coords, EltTy.bits .f32 = 32 ∨ (Rect.block (s := S262144x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S262144x128.size a
  hwx0_1 : ∀ i : grid0.Coords, EltTy.bits .f32 = 32 ∨ (Rect.block (s := S262144x128) S8x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S262144x128 : Shape := ⟨2, ![262144, 128]⟩
abbrev S128x128 : Shape := ⟨2, ![128, 128]⟩
abbrev S_ : Shape := ⟨0, ![]⟩
abbrev S262144 : Shape := ⟨1, ![262144]⟩
abbrev S262144x1 : Shape := ⟨2, ![262144, 1]⟩
abbrev S262143x128 : Shape := ⟨2, ![262143, 128]⟩

abbrev nBuf : Space → Nat
  | .hbm => 46
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S262144x128, .f32⟩
  | .hbm, ⟨5, _⟩ => ⟨S262144x128, .f32⟩
  | .hbm, ⟨6, _⟩ => ⟨S_, .f32⟩
  | .hbm, ⟨7, _⟩ => ⟨S262144x128, .f32⟩
  | .hbm, ⟨8, _⟩ => ⟨S262144x128, .f32⟩
  | .hbm, ⟨9, _⟩ => ⟨S262144x128, .f32⟩
  | .hbm, ⟨10, _⟩ => ⟨S262144x128, .f32⟩
  | .hbm, ⟨11, _⟩ => ⟨S262144x128, .i1⟩
  | .hbm, ⟨12, _⟩ => ⟨S262144x128, .f32⟩
  | .hbm, ⟨13, _⟩ => ⟨S262144x128, .f32⟩
  | .hbm, ⟨14, _⟩ => ⟨S262144x128, .f32⟩
  | .hbm, ⟨15, _⟩ => ⟨S262144x128, .f32⟩
  | .hbm, ⟨16, _⟩ => ⟨S262144x128, .f32⟩
  | .hbm, ⟨17, _⟩ => ⟨S262144x128, .f32⟩
  | .hbm, ⟨18, _⟩ => ⟨S262144x128, .f32⟩
  | .hbm, ⟨19, _⟩ => ⟨S262144x128, .f32⟩
  | .hbm, ⟨20, _⟩ => ⟨S_, .f32⟩
  | .hbm, ⟨21, _⟩ => ⟨S262144, .f32⟩
  | .hbm, ⟨22, _⟩ => ⟨S262144x1, .f32⟩
  | .hbm, ⟨23, _⟩ => ⟨S262144x128, .f32⟩
  | .hbm, ⟨24, _⟩ => ⟨S262144x128, .f32⟩
  | .hbm, ⟨25, _⟩ => ⟨S262143x128, .f32⟩
  | .hbm, ⟨26, _⟩ => ⟨S262143x128, .f32⟩
  | .hbm, ⟨27, _⟩ => ⟨S262143x128, .f32⟩
  | .hbm, ⟨28, _⟩ => ⟨S262143x128, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S128x128, .f32⟩
  | .hbm, ⟨34, _⟩ => ⟨S128x128, .f32⟩
  | .hbm, ⟨35, _⟩ => ⟨S128x128, .f32⟩
  | .hbm, ⟨36, _⟩ => ⟨S128x128, .f32⟩
  | .hbm, ⟨37, _⟩ => ⟨S_, .f32⟩
  | .hbm, ⟨38, _⟩ => ⟨S128x128, .f32⟩
  | .hbm, ⟨39, _⟩ => ⟨S128x128, .f32⟩
  | .hbm, ⟨40, _⟩ => ⟨S_, .f32⟩
  | .hbm, ⟨41, _⟩ => ⟨S128x128, .f32⟩
  | .hbm, ⟨42, _⟩ => ⟨S128x128, .f32⟩
  | .hbm, ⟨43, _⟩ => ⟨S128x128, .f32⟩
  | .hbm, ⟨44, _⟩ => ⟨S_, .f32⟩
  | .hbm, ⟨45, _⟩ => ⟨S_, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_0 : Ref sig .tc := ⟨.hbm, 29, rfl⟩
abbrev main_v12 : Ref sig .tc := ⟨.hbm, 30, rfl⟩
abbrev main_cst_1 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_2 : Ref sig .tc := ⟨.hbm, 37, rfl⟩
abbrev main_v18 : Ref sig .tc := ⟨.hbm, 38, rfl⟩
abbrev main_v19 : Ref sig .tc := ⟨.hbm, 39, rfl⟩
abbrev main_cst_3 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_4 : Ref sig .tc := ⟨.hbm, 44, rfl⟩
abbrev main_v23 : Ref sig .tc := ⟨.hbm, 45, rfl⟩

abbrev nD : Nat := 1
abbrev τ : Topo := Topo.v7x

variable {F : FTy → Type} [FloatOps F]

class Facts₀ : Prop where
  transposes_S128x128_S128x128_1_0 : S128x128.Transposes [1, 0] S128x128
  bcast_S_S262144x128 : S_.BroadcastsInDim S262144x128 (![] : Fin 0 → Fin S262144x128.rank)
  reducesTo_S262144x128_S262144_d1 : S262144x128.ReducesTo [1] S262144
  h_S_ : 0 < S_.numel
  bcast_S262144_S262144x1_0 : S262144.BroadcastsInDim S262144x1 (![0] : Fin 1 → Fin S262144x1.rank)
  bcast_S262144x1_S262144x128_0_1 : S262144x1.BroadcastsInDim S262144x128 (![0, 1] : Fin 2 → Fin S262144x128.rank)
  slices_S262144x128_S262143x128_0_0 : S262144x128.Slices ![0, 0] S262143x128
  slices_S262144x128_S262143x128_1_0 : S262144x128.Slices ![1, 0] S262143x128
  reducesTo_S262143x128_S_d0_1 : S262143x128.ReducesTo [0, 1] S_
  bcast_S_S128x128 : S_.BroadcastsInDim S128x128 (![] : Fin 0 → Fin S128x128.rank)
  reducesTo_S128x128_S_d0_1 : S128x128.ReducesTo [0, 1] S_
  dot_S262144x128_S128x128_S262144x128_1_0_0_1_n_n_wf : DotDims.WF S262144x128 S128x128 S262144x128 [1] [0] [0] [1] [] []
  dot_S128x128_S128x128_S128x128_1_0_0_1_n_n_wf : DotDims.WF S128x128 S128x128 S128x128 [1] [0] [0] [1] [] []

variable [Facts₀]

def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf

class Facts : Prop extends Facts₀ where

variable [Facts]
-- ==== Proof.K.Runs.lean ====
import proofs.«165239_j82600811037329_1_alg».proof.Proof.Gen.Kernel.Launch
import proofs.«165239_j82600811037329_1_alg».proof.Proof.Gen.Kernel.Skeleton
import proofs.«165239_j82600811037329_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-! What the two control cases of the kernel body share.

The kernel walks 128 row tiles of the input matrix. At each tile it reads the tile (2048 rows), the eight-row block
that begins with the first row of the NEXT tile (for the last tile: the last eight-row block of the matrix, whose
contribution the body masks out), and the two square weight matrices, and it adds one number, the tile's sum of
squared differences, into a 1×1 accumulator that the first tile resets to zero beforehand.
Here: the buffers as the region finds them (the region is the first item of the program, so they are the launch
contents), each window's block read off its array, the reset's condition decided over the grid (it holds at the
first tile only), and names for the staging memrefs the body is called with. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s TensorCore buffers when the region is entered: as launched. -/
abbrev V (c : Dev nD) (b : Ref sig .tc) : Buf (Elt F) ((c : Thread nD τ).loc b) := m ((c : Thread nD τ).loc b)

/-- Window `w`'s block at tile `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The condition under which the body resets the accumulator, from the grid coordinate. -/
abbrev cond0_0 (i : grid0.Coords) : Prop := (Scalar.cmpi .ne (Scalar.extui (Scalar.cmpi .eq (BitVec.ofNat 32 (i 0).val) 0#32)) 0#32) = 1#1
/-- It holds at the first tile only. -/
theorem hcond0_0 : ∀ t : Fin cfg0.N, cond0_0 (grid0.coords t) ↔ t.val % 128 = 0 :=
  (by decide +kernel : ∀ t : Fin grid0.N, cond0_0 (grid0.coords t) ↔ t.val % 128 = 0)

/-- One staging buffer of the accumulator's window, through which its contents are stated. -/
abbrev VO0_4 : View sig .tc .vmem S1x1 .f32 := (Memref.whole cc0_stg4_0 : Memref sig .tc .vmem S1x1 .f32).view

/-- Each window's current staging memref at tile `t`, as the pipeline passes it, and its wholeness. -/
abbrev ms0_0 (t : Fin cfg0.N) : Memref sig .tc .vmem S2048x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)

end Cert.Kernel.Hand

end
-- ==== Proof.K.RunA.lean ====
import proofs.«165239_j82600811037329_1_alg».proof.Proof.K.Runs

/-! The kernel body at the FIRST tile (the reset is taken). On whole staging memrefs, the four inputs' at their
contents and the accumulator's at anything, the body runs to its end holding the inputs' as they were and the
accumulator's buffer with its stores written one over the other: the zero, then the zero plus the tile's sum of
squares. The list of stores is found by the run itself. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg1 : Memref sig .tc .vmem S2048x128 .f32) (harg1 : arg1.IsWhole) (arg2 : Memref sig .tc .vmem S8x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (hc0 : cond0_0 i)
    (x0 : Vec F S2048x128 .f32) (x1 : Vec F S8x128 .f32) (x2 : Vec F S128x128 .f32) (x3 : Vec F S128x128 .f32) :
    { L4 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)) -∗ K ⟨⟩))
          ⊢ wp frame (wpE (defs₀ (F := F)) Variants.none c none) E (cc0__kernel i arg1 harg1 arg2 harg2 arg3 harg3 arg4 harg4 arg5 harg5) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

end Cert.Kernel.Hand

end
-- ==== Proof.K.RunB.lean ====
import proofs.«165239_j82600811037329_1_alg».proof.Proof.K.RunA

/-! The kernel body at every LATER tile (no reset). On whole staging memrefs, the four inputs' at their contents
and the accumulator's at its running contents, the body runs to its end holding the inputs' as they were and the
accumulator's buffer with one store written: the running contents plus the tile's sum of squares. The list of
stores is found by the run itself. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg1 : Memref sig .tc .vmem S2048x128 .f32) (harg1 : arg1.IsWhole) (arg2 : Memref sig .tc .vmem S8x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (hc0 : ¬cond0_0 i)
    (x0 : Vec F S2048x128 .f32) (x1 : Vec F S8x128 .f32) (x2 : Vec F S128x128 .f32) (x3 : Vec F S128x128 .f32) (xo4 : Vec F S1x1 .f32) :
    { L4 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo4
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)) -∗ K ⟨⟩))
          ⊢ wp frame (wpE (defs₀ (F := F)) Variants.none c none) E (cc0__kernel i arg1 harg1 arg2 harg2 arg3 harg3 arg4 harg4 arg5 harg5) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

end Cert.Kernel.Hand

end
-- ==== Proof.K.Body.lean ====
import proofs.«165239_j82600811037329_1_alg».proof.Proof.K.RunB

/-! What the accumulator holds tile by tile, the pipeline's proof data, and the body obligation.

After the first tile the accumulator's 1×1 buffer holds what the first case's stores leave (the zero, overwritten by
the zero plus the tile's sum); after every later tile what the second case's one store leaves over the contents the
tile before left. The input windows' buffers hold their blocks at every tile, fetched there or not (the two weight
matrices are fetched once, their block index never moving). The accumulator's window is written back after the
last tile only, so between tiles its buffer keeps what the body left. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first case's stores cover the accumulator's one cell. -/
theorem cover0_A_4 (c : Dev nD) (i : grid0.Coords) (arg1 : Memref sig .tc .vmem S2048x128 .f32) (harg1 : arg1.IsWhole) (arg2 : Memref sig .tc .vmem S8x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (hc0 : cond0_0 i)
    (x0 : Vec F S2048x128 .f32) (x1 : Vec F S8x128 .f32) (x2 : Vec F S128x128 .f32) (x3 : Vec F S128x128 .f32) (y : S1x1.Idx) :
    ∃ pc ∈ (kernelRun0_A c i arg1 harg1 arg2 harg2 arg3 harg3 arg4 harg4 arg5 harg5 hc0 x0 x1 x2 x3).1, y ∈ pc.1.set :=
  View.cover_of_tiledL (kernelRun0_A c i arg1 harg1 arg2 harg2 arg3 harg3 arg4 harg4 arg5 harg5 hc0 x0 x1 x2 x3).1 S1x1.size (by sl_kernel_rfl) y

/-- What the first case leaves in the accumulator's buffer: its stores read back. -/
def out0_A_4 (c : Dev nD) (i : grid0.Coords) (arg1 : Memref sig .tc .vmem S2048x128 .f32) (harg1 : arg1.IsWhole) (arg2 : Memref sig .tc .vmem S8x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (hc0 : cond0_0 i)
    (x0 : Vec F S2048x128 .f32) (x1 : Vec F S8x128 .f32) (x2 : Vec F S128x128 .f32) (x3 : Vec F S128x128 .f32) : Vec F S1x1 .f32 :=
  VO0_4.read (Elt F) (VO0_4.writes (Elt F) VO0_4.junk (kernelRun0_A c i arg1 harg1 arg2 harg2 arg3 harg3 arg4 harg4 arg5 harg5 hc0 x0 x1 x2 x3).1)

/-- The second case's store covers the accumulator's one cell. -/
theorem cover0_B_4 (c : Dev nD) (i : grid0.Coords) (arg1 : Memref sig .tc .vmem S2048x128 .f32) (harg1 : arg1.IsWhole) (arg2 : Memref sig .tc .vmem S8x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (hc0 : ¬cond0_0 i)
    (x0 : Vec F S2048x128 .f32) (x1 : Vec F S8x128 .f32) (x2 : Vec F S128x128 .f32) (x3 : Vec F S128x128 .f32) (xo4 : Vec F S1x1 .f32) (y : S1x1.Idx) :
    ∃ pc ∈ (kernelRun0_B c i arg1 harg1 arg2 harg2 arg3 harg3 arg4 harg4 arg5 harg5 hc0 x0 x1 x2 x3 xo4).1, y ∈ pc.1.set :=
  View.cover_of_tiledL (kernelRun0_B c i arg1 harg1 arg2 harg2 arg3 harg3 arg4 harg4 arg5 harg5 hc0 x0 x1 x2 x3 xo4).1 S1x1.size (by sl_kernel_rfl) y

/-- What the second case leaves in the accumulator's buffer over the running contents `xo4`. -/
def out0_B_4 (c : Dev nD) (i : grid0.Coords) (arg1 : Memref sig .tc .vmem S2048x128 .f32) (harg1 : arg1.IsWhole) (arg2 : Memref sig .tc .vmem S8x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (hc0 : ¬cond0_0 i)
    (x0 : Vec F S2048x128 .f32) (x1 : Vec F S8x128 .f32) (x2 : Vec F S128x128 .f32) (x3 : Vec F S128x128 .f32) (xo4 : Vec F S1x1 .f32) : Vec F S1x1 .f32 :=
  VO0_4.read (Elt F) (VO0_4.writes (Elt F) VO0_4.junk (kernelRun0_B c i arg1 harg1 arg2 harg2 arg3 harg3 arg4 harg4 arg5 harg5 hc0 x0 x1 x2 x3 xo4).1)

/-- THE ACCUMULATION: what the accumulator's buffer holds after the body at tile `n`. -/
def outsAt0 (c : Dev nD) : (n : ℕ) → n < cfg0.N → Vec F S1x1 .f32
  | 0, hn => out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩)
  | n + 1, hn =>
    if h0 : (n + 1) % 128 = 0 then
      out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩)
    else
      out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn))

/-- At the first tile: the first case's contents. -/
theorem outsAt0_A (c : Dev nD) (t : Fin cfg0.N) (h0 : t.val % 128 = 0) :
    outsAt0 m c t.val t.isLt = out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t) (iblk m c 3 t) := by
  obtain ⟨n, hn⟩ := t
  cases n with
  | zero => exact rfl
  | succ n => exact (dif_pos h0).trans rfl

/-- At a later tile: the second case's contents over what the tile before left. -/
theorem outsAt0_B (c : Dev nD) (t : Fin cfg0.N) (h0 : ¬t.val % 128 = 0) :
    outsAt0 m c t.val t.isLt = out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) (iblk m c 3 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data of the one pipeline on core `c`: the arrays as launched; after the body each input's buffer at
    its block and the accumulator's at `outsAt0`; the plain invariant; the input matrix held in halves by its two
    windows, every other array whole; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt) := by dsimp only [dats]

/-- Each input window's buffer holds its block at every tile, fetched there or not: unfetched, its block index has
    not moved since the tile before. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-- At a later tile the accumulator's buffer holds what the body left at the tile before: it is written back after
    the last tile only. -/
theorem before0_4_B (c : Dev nD) (t : Fin cfg0.N) (h0 : ¬t.val % 128 = 0) (d) :
    (dats m 0 c).before 4 t d = (outsAt0 m c (t.val - 1) (Nat.lt_of_le_of_lt (Nat.sub_le _ _) t.isLt)) := by
  have hN : t.val < 128 := lt_of_lt_of_eq t.isLt (show cfg0.N = 128 from N_0)
  rw [Dat.before_out_kept _ 4 rfl t (by omega) (Bool.eq_false_iff.mpr fun h => by have := (flush0_4 _).mp h; dsimp only at this; omega)
    (fun _ => rfl) (fun _ _ => rfl)]
  dsimp only [dats]

end Cert.Kernel.Hand

end
-- ==== Proof.K.Oblig.lean ====
import proofs.«165239_j82600811037329_1_alg».proof.Proof.K.Body

/-! The body obligation at a generic tile. The inputs' buffers hold their blocks; the closed form of the reset's
condition says which case the tile is in; at a later tile the accumulator's buffer holds what the tile before left;
so the case's whole-body run applies, the invariant passes through unread, and the core owes nothing throughout. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at tile `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 128 := lt_of_lt_of_eq t.isLt (show cfg0.N = 128 from N_0)
  by_cases h0 : t.val % 128 = 0
  · rw [outsAt0_A m c t h0]
    unfold out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A_4 c _ _ _ _ _ _ _ _ _ _ _ _ _ _ _ _)
  · rw [outsAt0_B m c t h0]
    simp only [before0_4_B m c t h0]
    unfold out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _)

/-- The library's body obligation, at every tile. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Launch.lean ====
import proofs.«165239_j82600811037329_1_alg».proof.Proof.K.Runs

/-! The launch. The program is the kernel region followed by sixteen host operations. The input matrix is handed to
the region through TWO windows (the tile, and the eight-row block that starts the next tile), so its full share is
dealt between them in halves at the region's entry and put together again at its exit; the host operations that
follow read the accumulator's array and the two weight matrices, never the input matrix. The run concludes: the
three arguments are unchanged, and the two results are the host operations' values from the region's exit, where
the accumulator's array holds what the pipeline wrote back. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The shares at which the windows hold their arrays: the input matrix, read by two windows, in halves. -/
def qShare : Fin cfg0.W → PosShare TreeShare
  | ⟨0, _⟩ => fullShare.left
  | ⟨1, _⟩ => fullShare.right
  | _ => fullShare

/-- Core `c`'s buffers at the region's exit: the accumulator's array at `out`, every other buffer as launched. -/
def Wexit (c : Dev nD) (out : Buf (Elt F) ((cfg0.win 4).arr.view.loc (c.tc : Thread nD τ))) : Valuation τ sig (Elt F) := by
  classical
  exact Function.update (fun b => m (c, b)) (Proc.devRef .tc main_v0) out

theorem Wexit_v0 (c : Dev nD) (out : Buf (Elt F) ((cfg0.win 4).arr.view.loc (c.tc : Thread nD τ))) :
    Wexit m c out (Proc.devRef .tc main_v0) = out := by
  unfold Wexit
  exact Function.update_self _ _ _
theorem Wexit_arg1 (c : Dev nD) (out : Buf (Elt F) ((cfg0.win 4).arr.view.loc (c.tc : Thread nD τ))) :
    Wexit m c out (Proc.devRef .tc main_arg1) = m ((c.tc : Thread nD τ).loc main_arg1) := by
  unfold Wexit
  exact Function.update_of_ne (StableHlo.devRef_ne_of_ne (by decide)) _ _
theorem Wexit_arg2 (c : Dev nD) (out : Buf (Elt F) ((cfg0.win 4).arr.view.loc (c.tc : Thread nD τ))) :
    Wexit m c out (Proc.devRef .tc main_arg2) = m ((c.tc : Thread nD τ).loc main_arg2) := by
  unfold Wexit
  exact Function.update_of_ne (StableHlo.devRef_ne_of_ne (by decide)) _ _

section Arrays

variable {c : Dev nD} (dat : Dat τ (Elt F) Unit ℕ (UR sig nD τ) ℕ cfg0 c)

private theorem share_0 (hq : ∀ w, dat.q w = qShare w) : dat.share 0 = fullShare.left := by
  unfold Dat.share; rw [hq]; rfl
private theorem share_1 (hq : ∀ w, dat.q w = qShare w) : dat.share 1 = fullShare.right := by
  unfold Dat.share; rw [hq]; rfl
private theorem share_2 (hq : ∀ w, dat.q w = qShare w) : dat.share 2 = fullShare := by
  unfold Dat.share; rw [hq]; rfl
private theorem share_3 (hq : ∀ w, dat.q w = qShare w) : dat.share 3 = fullShare := by
  unfold Dat.share; rw [hq]; rfl
private theorem share_4 : dat.share 4 = fullShare := by
  unfold Dat.share; rfl

private theorem arrays_chain (hq : ∀ w, dat.q w = qShare w)
    (G : (w : Fin cfg0.W) → Buf (Elt F) ((cfg0.win w).arr.view.loc (c.tc : Thread nD τ))) :
    (dat.arrays G : sProp 𝕄)
      = iprop((((c.tc : Thread nD τ).loc main_arg0) ↦{fullShare.left} G 0) ∗ (((c.tc : Thread nD τ).loc main_arg0) ↦{fullShare.right} G 1)
          ∗ (((c.tc : Thread nD τ).loc main_arg1) ↦{fullShare} G 2) ∗ (((c.tc : Thread nD τ).loc main_arg2) ↦{fullShare} G 3)
          ∗ (((c.tc : Thread nD τ).loc main_v0) ↦{fullShare} G 4)) := by
  unfold Dat.arrays
  rw [bigSep_W0, share_0 dat hq, share_1 dat hq, share_2 dat hq, share_3 dat hq, share_4 dat,
    (arr_whole0 0).set_eq_univ, (arr_whole0 2).set_eq_univ, (arr_whole0 3).set_eq_univ, (arr_whole0 4).set_eq_univ]

end Arrays

section Split

variable {c : Dev nD} (dat : Dat τ (Elt F) Unit ℕ (UR sig nD τ) ℕ cfg0 c)

/-- The four buffers behind the five windows, one by one. -/
private theorem arrBufs0_eq (c : Dev nD) (W : (b : Ref sig .tc) → Buf (Elt F) ((c.tc : Thread nD τ).loc b)) :
    (Pipeline.arrBufs spec0 c W : sProp 𝕄)
      = iprop((((c.tc : Thread nD τ).loc main_arg0) ↦{fullShare} W main_arg0) ∗ (((c.tc : Thread nD τ).loc main_arg1) ↦{fullShare} W main_arg1)
          ∗ (((c.tc : Thread nD τ).loc main_arg2) ↦{fullShare} W main_arg2) ∗ (((c.tc : Thread nD τ).loc main_v0) ↦{fullShare} W main_v0)) := by
  unfold Pipeline.arrBufs
  exact bigSep_eq_bigSepL_of_eq [main_arg0, main_arg1, main_arg2, main_v0] (by decide) (by decide) _

/-- The dealing at the entry: the four buffers behind the five windows, whole, make the windows' arrays at the
    data's shares, the input matrix's full share split in its two halves. -/
private theorem hsplit0 (hq : ∀ w, dat.q w = qShare w) (hA : ∀ w, dat.A w = V m c (Pipeline.arrRef spec0 w)) :
    (Pipeline.arrBufs spec0 c (V m c) : sProp 𝕄) ⊢ dat.arrays (dat.arrAt · 0) := by
  have e0 : dat.arrAt 0 0 = V m c main_arg0 := hA 0
  have e1 : dat.arrAt 1 0 = V m c main_arg0 := hA 1
  have e2 : dat.arrAt 2 0 = V m c main_arg1 := hA 2
  have e3 : dat.arrAt 3 0 = V m c main_arg2 := hA 3
  have e4 : dat.arrAt 4 0 = V m c main_v0 := hA 4
  rw [arrays_chain dat hq, e0, e1, e2, e3, e4, arrBufs0_eq]
  iintro ⟨H0, H1, H2, H3⟩
  ihave H0' := (pointsTo_share (PosShare.mem_left_op_right fullShare)).1 $$ H0
  icases H0' with ⟨Hl, Hr⟩
  isplitl [Hl]; · iexact Hl
  isplitl [Hr]; · iexact Hr
  isplitl [H1]; · iexact H1
  isplitl [H2]; · iexact H2
  iexact H3

end Split

section Tail

/-- The unscoped buffers the host operations run within: every one but the input matrix. -/
private def tailList : List (Ref sig .tc) :=
  [main_arg1, main_arg2, main_v0, main_v1, main_cst, main_v2, main_v3, main_v4, main_v5, main_v6, main_cst_0, main_v7, main_v8,
    main_cst_1, main_v9, main_v10, main_v11, main_cst_2, main_v12]

/-- The same as a set of device buffers. -/
private def tailS : Finset (DevRef τ sig) := tailList.toFinset.map ⟨Proc.devRef (sig := sig) .tc, Proc.devRef_injective _⟩

private theorem mem_tailS {r : Ref sig .tc} (h : r ∈ tailList) : Proc.devRef (τ := τ) .tc r ∈ tailS :=
  Finset.mem_map_of_mem _ (List.mem_toFinset.mpr h)

/-- That set held at a valuation: the two weight matrices, the accumulator's array, and the sixteen buffers that
    pass the region by. -/
private theorem held_tailS (c : Dev nD) (W : Valuation τ sig (Elt F)) :
    (StableHlo.held (c.tc : Thread nD τ) tailS W : sProp 𝕄)
      = iprop((((c.tc : Thread nD τ).loc main_arg1) ↦{fullShare} W (Proc.devRef .tc main_arg1))
          ∗ (((c.tc : Thread nD τ).loc main_arg2) ↦{fullShare} W (Proc.devRef .tc main_arg2))
          ∗ (((c.tc : Thread nD τ).loc main_v0) ↦{fullShare} W (Proc.devRef .tc main_v0))
          ∗ Pipeline.unscopedRest spec0 c (fun b => W (Proc.devRef .tc b))) := by
  unfold StableHlo.held tailS
  rw [bigSep_map, bigSep_eq_bigSepL tailList (by decide), unscopedRest0_eq]
  rfl

/-- Every host operation touches buffers of that set only. -/
private theorem tail_sub : ∀ op ∈ (hostOps1 : List (HloOp τ sig (Elt F))), op.bufs ⊆ tailS := by
  intro op hop
  simp only [hostOps1, List.mem_cons, List.mem_nil_iff, or_false] at hop
  rcases hop with rfl | rfl | rfl | rfl | rfl | rfl | rfl | rfl | rfl | rfl | rfl | rfl | rfl | rfl | rfl | rfl
  all_goals
    simp only [StableHlo.nullary_bufs, StableHlo.unary_bufs, StableHlo.binary_bufs, StableHlo.reshape_bufs,
      Finset.insert_subset_iff, Finset.singleton_subset_iff]
    (repeat' apply And.intro) <;> exact mem_tailS (by decide)

/-- None allocates. -/
private theorem tail_fresh : ∀ op ∈ (hostOps1 : List (HloOp τ sig (Elt F))), op.fresh = ∅ := by
  intro op hop
  simp only [hostOps1, List.mem_cons, List.mem_nil_iff, or_false] at hop
  rcases hop with rfl | rfl | rfl | rfl | rfl | rfl | rfl | rfl | rfl | rfl | rfl | rfl | rfl | rfl | rfl | rfl <;> rfl

/-- None writes a weight matrix or the accumulator's array. -/
private theorem tail_keeps (r : Ref sig .tc) (hr : r = main_arg1 ∨ r = main_arg2 ∨ r = main_v0) :
    ∀ op ∈ (hostOps1 : List (HloOp τ sig (Elt F))), Proc.devRef (τ := τ) .tc r ∉ op.writes := by
  intro op hop
  simp only [hostOps1, List.mem_cons, List.mem_nil_iff, or_false] at hop
  rcases hr with rfl | rfl | rfl <;>
    rcases hop with rfl | rfl | rfl | rfl | rfl | rfl | rfl | rfl | rfl | rfl | rfl | rfl | rfl | rfl | rfl | rfl <;>
    simp only [StableHlo.nullary_writes, StableHlo.unary_writes, StableHlo.binary_writes, StableHlo.reshape_writes, Finset.mem_singleton] <;>
    exact StableHlo.devRef_ne_of_ne (by decide)

end Tail

section TailRun

variable {c : Dev nD} (dat : Dat τ (Elt F) Unit ℕ (UR sig nD τ) ℕ cfg0 c)

/-- Core `c`'s buffers after the host operations, run from the region's exit where the accumulator's array is `out`. -/
private abbrev afterV (c : Dev nD) (out : Buf (Elt F) ((cfg0.win 4).arr.view.loc (c.tc : Thread nD τ))) (b : Ref sig .tc) :
    Buf (Elt F) ((c.tc : Thread nD τ).loc b) :=
  StableHlo.after hostOps1 (Wexit m c out) (Proc.devRef .tc b)

/-- At the exit the buffers that pass the region by are as launched. -/
private theorem rest_Wexit (c : Dev nD) (out : Buf (Elt F) ((cfg0.win 4).arr.view.loc (c.tc : Thread nD τ))) :
    (Pipeline.unscopedRest spec0 c (fun b => Wexit m c out (Proc.devRef .tc b)) : sProp 𝕄) = Pipeline.unscopedRest spec0 c (V m c) := by
  classical
  unfold Pipeline.unscopedRest
  refine bigSep_congr fun b hb => ?_
  have hb' : b ≠ main_v0 := fun e =>
    (Finset.mem_sdiff.mp hb).2 (Finset.mem_image.mpr ⟨4, Finset.mem_univ _, (e.symm : Pipeline.arrRef spec0 4 = b)⟩)
  have hv : Wexit m c out (Proc.devRef .tc b) = V m c b := by
    unfold Wexit
    exact Function.update_of_ne (StableHlo.devRef_ne_of_ne hb') _ _
  beta_reduce
  rw [hv]

/-- THE HOST OPERATIONS after the region: holding the two halves of the input matrix aside, they run within the
    other unscoped buffers from the exit contents, and hand everything back, those buffers at their values after
    the sixteen operations, the weight matrices and the accumulator's array unwritten. -/
private theorem htail0 (hq : ∀ w, dat.q w = qShare w) (hA : ∀ w, dat.A w = V m c (Pipeline.arrRef spec0 w)) (Q' : PUnit → sProp 𝕄) :
    iprop((iprop(dat.arrays (dat.arrAt · cfg0.N) ∗ Pipeline.unscopedRest spec0 c (afterV m c (dat.arrAt 4 cfg0.N))) -∗ Q' ⟨⟩)
        ∗ boundary (c.tc : Thread nD τ) ∗ dat.arrays (dat.arrAt · cfg0.N) ∗ Pipeline.unscopedRest spec0 c (V m c))
      ⊢ wp frame (wpE (Pipeline.defs (fun q => Cfg.toPCfg (Val := Elt F) (cfgs q)) (defs₀ (F := F))) (Variants.lift Variants.none) (c.tc : Thread nD τ) none)
          Set.univ (Pipeline.chain ([hostOps1].map StableHlo.seq)) Q' := by
  classical
  have e0 : dat.arrAt 0 cfg0.N = V m c main_arg0 := (dat.arrAt_in 0 rfl _).trans (hA 0)
  have e1 : dat.arrAt 1 cfg0.N = V m c main_arg0 := (dat.arrAt_in 1 rfl _).trans (hA 1)
  have e2 : dat.arrAt 2 cfg0.N = V m c main_arg1 := (dat.arrAt_in 2 rfl _).trans (hA 2)
  have e3 : dat.arrAt 3 cfg0.N = V m c main_arg2 := (dat.arrAt_in 3 rfl _).trans (hA 3)
  have hW : (StableHlo.held (c.tc : Thread nD τ) tailS (Wexit m c (dat.arrAt 4 cfg0.N)) : sProp 𝕄)
      = iprop((((c.tc : Thread nD τ).loc main_arg1) ↦{fullShare} V m c main_arg1) ∗ (((c.tc : Thread nD τ).loc main_arg2) ↦{fullShare} V m c main_arg2)
          ∗ (((c.tc : Thread nD τ).loc main_v0) ↦{fullShare} dat.arrAt 4 cfg0.N) ∗ Pipeline.unscopedRest spec0 c (V m c)) := by
    rw [held_tailS, Wexit_arg1, Wexit_arg2, Wexit_v0, rest_Wexit]
  have hW' : (StableHlo.held (c.tc : Thread nD τ) tailS (StableHlo.after ([hostOps1] : List (List (HloOp τ sig (Elt F)))).flatten (Wexit m c (dat.arrAt 4 cfg0.N))) : sProp 𝕄)
      = iprop((((c.tc : Thread nD τ).loc main_arg1) ↦{fullShare} V m c main_arg1) ∗ (((c.tc : Thread nD τ).loc main_arg2) ↦{fullShare} V m c main_arg2)
          ∗ (((c.tc : Thread nD τ).loc main_v0) ↦{fullShare} dat.arrAt 4 cfg0.N)
          ∗ Pipeline.unscopedRest spec0 c (afterV m c (dat.arrAt 4 cfg0.N))) := by
    rw [List.flatten_cons, List.flatten_nil, List.append_nil, held_tailS,
      StableHlo.after_of_forall_not_mem _ _ (tail_keeps main_arg1 (.inl rfl)),
      StableHlo.after_of_forall_not_mem _ _ (tail_keeps main_arg2 (.inr (.inl rfl))),
      StableHlo.after_of_forall_not_mem _ _ (tail_keeps main_v0 (.inr (.inr rfl))), Wexit_arg1, Wexit_arg2, Wexit_v0]
  rw [arrays_chain dat hq, e0, e1, e2, e3, ← List.append_nil (([hostOps1] : List (List (HloOp τ sig (Elt F)))).map StableHlo.seq)]
  iintro ⟨Hk, Hb, ⟨Hl, Hr, H1, H2, H4⟩, HZ⟩
  ihave Hh := (Entails.of_eq hW.symm) $$ [H1 H2 H4 HZ]
  · isplitl [H1]; · iexact H1
    isplitl [H2]; · iexact H2
    isplitl [H4]; · iexact H4
    iexact HZ
  iapply (Pipeline.wp_seqs_then (fun q => Cfg.toPCfg (Val := Elt F) (cfgs q)) defs₀ Variants.none c tailS [] [hostOps1]
    (fun ops ho op h => by
      simp only [List.mem_cons, List.mem_nil_iff, or_false] at ho
      subst ho; exact tail_sub op h)
    (fun ops ho op h => by
      simp only [List.mem_cons, List.mem_nil_iff, or_false] at ho
      subst ho; exact tail_fresh op h)
    (Wexit m c (dat.arrAt 4 cfg0.N))) $$ [Hb Hh]
  · isplitl [Hb]; · iexact Hb
    iexact Hh
  iintro Hb
  rw [Pipeline.chain_nil, wp_pure, hW']
  imodintro
  icases Hb with ⟨-, H1, H2, H4, HZ⟩
  iapply Hk
  isplitr [HZ]
  · isplitl [Hl]; · iexact Hl
    isplitl [Hr]; · iexact Hr
    isplitl [H1]; · iexact H1
    isplitl [H2]; · iexact H2
    iexact H4
  · iexact HZ

end TailRun

/-- @main is the region followed by the host operations: it reduces to the region continued by them. -/
private theorem hmain0 : Pipeline.HMainK (Ix := Unit) (Name := ℕ) (U := UR sig nD τ) (Lvl := ℕ) cfgs 0 defs₀ Variants.none m (main (F := F)) (V m)
    (fun _ => Pipeline.chain ([hostOps1].map StableHlo.seq)) :=
  Pipeline.hmain_around cfgs 0 defs₀ Variants.none m main [] [hostOps1] trivial trivial main_chain

/-- THE RUN, for any proof data of the one pipeline whose arrays are the launch contents, whose shares are
    `qShare`, that owes nothing and keeps the plain invariant, given its body obligation. -/
theorem run_main_of (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (hA : ∀ c w, (dats 0 c).A w = V m c (Pipeline.arrRef spec0 w))
    (hq : ∀ c w, (dats 0 c).q w = qShare w)
    (howed : ∀ c t, (dats 0 c).owed t = 0)
    (hΦ : ∀ c t, (dats 0 c).Φ t = Pipeline.ΦA spec0 c) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_v2)
          = StableHlo.after hostOps1 (Wexit m c ((dats 0 c).arrAt 4 cfg0.N)) (Proc.devRef .tc main_v2)
      ∧ r.2.mem ((c.tc : Thread nD τ).loc main_v12)
          = StableHlo.after hostOps1 (Wexit m c ((dats 0 c).arrAt 4 cfg0.N)) (Proc.devRef .tc main_v12)) := by
  classical
  exact Pipeline.θ_run_region_pf_tail (fun q => Cfg.toPCfg (Val := Elt F) (cfgs q)) (fun q => (cfgs q).toPCfg_adm) dats () cellOf_inj 0
    winFacts₀0 (Pipeline.OwnSemFacts.none spec0) (Pipeline.PreFacts.none _) emb₁ defs₀ Variants.none m ρ main
    (fun _ => Pipeline.chain ([hostOps1].map StableHlo.seq)) hbody block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (V := fun c => V m c) (hmain := hmain0 m)
    (hsplit := fun c => hsplit0 m (dats 0 c) (hq c) (hA c))
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (afterV m c ((dats 0 c).arrAt 4 cfg0.N)))
    (hX := fun c => by
      rw [Pipeline.unscopedRestP_none]
      iintro ⟨HU, -, -, -, Hp, -⟩; imodintro
      isplitl [Hp]; · iexists _; iexact Hp
      iexact HU)
    (hin := fun c => by
      rw [hΦ]; unfold Pipeline.ΦA
      iintro ⟨Hp, -, Hr⟩
      isplitl [Hr]; · iexact Hr
      iexact Hp)
    (hout := fun c => by
      rw [hΦ, Pipeline.ownSems0_none]; unfold Pipeline.ΦA
      iintro ⟨Hr, Hp⟩
      isplitl [Hp]; · iexact Hp
      isplitr; · iempintro
      iexact Hr)
    (htail := fun c Q' => htail0 m (dats 0 c) (hq c) (hA c) Q')
    (QY := fun c s => ∀ b ∈ (Finset.univ.filter fun b : Ref sig .tc => ¬ b.isScoped) \ Finset.univ.image (Pipeline.arrRef spec0),
      s.mem ((c.tc : Thread nD τ).loc b) = afterV m c ((dats 0 c).arrAt 4 cfg0.N) b)
    (hY := fun c s' => by
      iintro ⟨-, HU, HSI⟩
      unfold Pipeline.unscopedRest
      imodintro
      iapply (pointsTo_read_all ((Finset.univ.filter fun b : Ref sig .tc => ¬ b.isScoped) \ Finset.univ.image (Pipeline.arrRef spec0))
        (fun b => (c.tc : Thread nD τ).loc b) (afterV m c ((dats 0 c).arrAt 4 cfg0.N)) s')
      isplitl [HU] <;> iassumption)
    (hQ := fun s h c => by
      obtain ⟨harr, -, hrest⟩ := h c
      refine ⟨?_, ?_, ?_, ?_, ?_⟩
      · exact (harr 0).trans (((dats 0 c).arrAt_in 0 rfl _).trans (hA c 0))
      · exact (harr 2).trans (((dats 0 c).arrAt_in 2 rfl _).trans (hA c 2))
      · exact (harr 3).trans (((dats 0 c).arrAt_in 3 rfl _).trans (hA c 3))
      · exact hrest main_v2 (by decide)
      · exact hrest main_v12 (by decide))

end Cert.Kernel.Hand

end
-- ==== Proof.KI.Runs.lean ====
import proofs.«165239_j82600811037329_1_alg».proof.Proof.Gen.KernelIdeal.Launch
import proofs.«165239_j82600811037329_1_alg».proof.Proof.Gen.KernelIdeal.Skeleton
import proofs.«165239_j82600811037329_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-! What the two control cases of the kernel body share.

The kernel walks 128 row tiles of the input matrix. At each tile it reads the tile (2048 rows), the eight-row block
that begins with the first row of the NEXT tile (for the last tile: the last eight-row block of the matrix, whose
contribution the body masks out), and the two square weight matrices, and it adds one number, the tile's sum of
squared differences, into a 1×1 accumulator that the first tile resets to zero beforehand.
Here: the buffers as the region finds them (the region is the first item of the program, so they are the launch
contents), each window's block read off its array, the reset's condition decided over the grid (it holds at the
first tile only), and names for the staging memrefs the body is called with. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s TensorCore buffers when the region is entered: as launched. -/
abbrev V (c : Dev nD) (b : Ref sig .tc) : Buf (Elt F) ((c : Thread nD τ).loc b) := m ((c : Thread nD τ).loc b)

/-- Window `w`'s block at tile `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The condition under which the body resets the accumulator, from the grid coordinate. -/
abbrev cond0_0 (i : grid0.Coords) : Prop := (Scalar.cmpi .ne (Scalar.extui (Scalar.cmpi .eq (BitVec.ofNat 32 (i 0).val) 0#32)) 0#32) = 1#1
/-- It holds at the first tile only. -/
theorem hcond0_0 : ∀ t : Fin cfg0.N, cond0_0 (grid0.coords t) ↔ t.val % 128 = 0 :=
  (by decide +kernel : ∀ t : Fin grid0.N, cond0_0 (grid0.coords t) ↔ t.val % 128 = 0)

/-- One staging buffer of the accumulator's window, through which its contents are stated. -/
abbrev VO0_4 : View sig .tc .vmem S1x1 .f32 := (Memref.whole cc0_stg4_0 : Memref sig .tc .vmem S1x1 .f32).view

/-- Each window's current staging memref at tile `t`, as the pipeline passes it, and its wholeness. -/
abbrev ms0_0 (t : Fin cfg0.N) : Memref sig .tc .vmem S2048x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)

end Cert.KernelIdeal.Hand

end
-- ==== Proof.KI.RunA.lean ====
import proofs.«165239_j82600811037329_1_alg».proof.Proof.KI.Runs

/-! The kernel body at the FIRST tile (the reset is taken). On whole staging memrefs, the four inputs' at their
contents and the accumulator's at anything, the body runs to its end holding the inputs' as they were and the
accumulator's buffer with its stores written one over the other: the zero, then the zero plus the tile's sum of
squares. The list of stores is found by the run itself. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg1 : Memref sig .tc .vmem S2048x128 .f32) (harg1 : arg1.IsWhole) (arg2 : Memref sig .tc .vmem S8x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (hc0 : cond0_0 i)
    (x0 : Vec F S2048x128 .f32) (x1 : Vec F S8x128 .f32) (x2 : Vec F S128x128 .f32) (x3 : Vec F S128x128 .f32) :
    { L4 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)) -∗ K ⟨⟩))
          ⊢ wp frame (wpE (defs₀ (F := F)) Variants.none c none) E (cc0__kernel i arg1 harg1 arg2 harg2 arg3 harg3 arg4 harg4 arg5 harg5) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

end Cert.KernelIdeal.Hand

end
-- ==== Proof.KI.RunB.lean ====
import proofs.«165239_j82600811037329_1_alg».proof.Proof.KI.RunA

/-! The kernel body at every LATER tile (no reset). On whole staging memrefs, the four inputs' at their contents
and the accumulator's at its running contents, the body runs to its end holding the inputs' as they were and the
accumulator's buffer with one store written: the running contents plus the tile's sum of squares. The list of
stores is found by the run itself. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg1 : Memref sig .tc .vmem S2048x128 .f32) (harg1 : arg1.IsWhole) (arg2 : Memref sig .tc .vmem S8x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (hc0 : ¬cond0_0 i)
    (x0 : Vec F S2048x128 .f32) (x1 : Vec F S8x128 .f32) (x2 : Vec F S128x128 .f32) (x3 : Vec F S128x128 .f32) (xo4 : Vec F S1x1 .f32) :
    { L4 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo4
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)) -∗ K ⟨⟩))
          ⊢ wp frame (wpE (defs₀ (F := F)) Variants.none c none) E (cc0__kernel i arg1 harg1 arg2 harg2 arg3 harg3 arg4 harg4 arg5 harg5) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

end Cert.KernelIdeal.Hand

end
-- ==== Proof.KI.Body.lean ====
import proofs.«165239_j82600811037329_1_alg».proof.Proof.KI.RunB

/-! What the accumulator holds tile by tile, the pipeline's proof data, and the body obligation.

After the first tile the accumulator's 1×1 buffer holds what the first case's stores leave (the zero, overwritten by
the zero plus the tile's sum); after every later tile what the second case's one store leaves over the contents the
tile before left. The input windows' buffers hold their blocks at every tile, fetched there or not (the two weight
matrices are fetched once, their block index never moving). The accumulator's window is written back after the
last tile only, so between tiles its buffer keeps what the body left. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first case's stores cover the accumulator's one cell. -/
theorem cover0_A_4 (c : Dev nD) (i : grid0.Coords) (arg1 : Memref sig .tc .vmem S2048x128 .f32) (harg1 : arg1.IsWhole) (arg2 : Memref sig .tc .vmem S8x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (hc0 : cond0_0 i)
    (x0 : Vec F S2048x128 .f32) (x1 : Vec F S8x128 .f32) (x2 : Vec F S128x128 .f32) (x3 : Vec F S128x128 .f32) (y : S1x1.Idx) :
    ∃ pc ∈ (kernelRun0_A c i arg1 harg1 arg2 harg2 arg3 harg3 arg4 harg4 arg5 harg5 hc0 x0 x1 x2 x3).1, y ∈ pc.1.set :=
  View.cover_of_tiledL (kernelRun0_A c i arg1 harg1 arg2 harg2 arg3 harg3 arg4 harg4 arg5 harg5 hc0 x0 x1 x2 x3).1 S1x1.size (by sl_kernel_rfl) y

/-- What the first case leaves in the accumulator's buffer: its stores read back. -/
def out0_A_4 (c : Dev nD) (i : grid0.Coords) (arg1 : Memref sig .tc .vmem S2048x128 .f32) (harg1 : arg1.IsWhole) (arg2 : Memref sig .tc .vmem S8x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (hc0 : cond0_0 i)
    (x0 : Vec F S2048x128 .f32) (x1 : Vec F S8x128 .f32) (x2 : Vec F S128x128 .f32) (x3 : Vec F S128x128 .f32) : Vec F S1x1 .f32 :=
  VO0_4.read (Elt F) (VO0_4.writes (Elt F) VO0_4.junk (kernelRun0_A c i arg1 harg1 arg2 harg2 arg3 harg3 arg4 harg4 arg5 harg5 hc0 x0 x1 x2 x3).1)

/-- The second case's store covers the accumulator's one cell. -/
theorem cover0_B_4 (c : Dev nD) (i : grid0.Coords) (arg1 : Memref sig .tc .vmem S2048x128 .f32) (harg1 : arg1.IsWhole) (arg2 : Memref sig .tc .vmem S8x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (hc0 : ¬cond0_0 i)
    (x0 : Vec F S2048x128 .f32) (x1 : Vec F S8x128 .f32) (x2 : Vec F S128x128 .f32) (x3 : Vec F S128x128 .f32) (xo4 : Vec F S1x1 .f32) (y : S1x1.Idx) :
    ∃ pc ∈ (kernelRun0_B c i arg1 harg1 arg2 harg2 arg3 harg3 arg4 harg4 arg5 harg5 hc0 x0 x1 x2 x3 xo4).1, y ∈ pc.1.set :=
  View.cover_of_tiledL (kernelRun0_B c i arg1 harg1 arg2 harg2 arg3 harg3 arg4 harg4 arg5 harg5 hc0 x0 x1 x2 x3 xo4).1 S1x1.size (by sl_kernel_rfl) y

/-- What the second case leaves in the accumulator's buffer over the running contents `xo4`. -/
def out0_B_4 (c : Dev nD) (i : grid0.Coords) (arg1 : Memref sig .tc .vmem S2048x128 .f32) (harg1 : arg1.IsWhole) (arg2 : Memref sig .tc .vmem S8x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (hc0 : ¬cond0_0 i)
    (x0 : Vec F S2048x128 .f32) (x1 : Vec F S8x128 .f32) (x2 : Vec F S128x128 .f32) (x3 : Vec F S128x128 .f32) (xo4 : Vec F S1x1 .f32) : Vec F S1x1 .f32 :=
  VO0_4.read (Elt F) (VO0_4.writes (Elt F) VO0_4.junk (kernelRun0_B c i arg1 harg1 arg2 harg2 arg3 harg3 arg4 harg4 arg5 harg5 hc0 x0 x1 x2 x3 xo4).1)

/-- THE ACCUMULATION: what the accumulator's buffer holds after the body at tile `n`. -/
def outsAt0 (c : Dev nD) : (n : ℕ) → n < cfg0.N → Vec F S1x1 .f32
  | 0, hn => out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩)
  | n + 1, hn =>
    if h0 : (n + 1) % 128 = 0 then
      out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩)
    else
      out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn))

/-- At the first tile: the first case's contents. -/
theorem outsAt0_A (c : Dev nD) (t : Fin cfg0.N) (h0 : t.val % 128 = 0) :
    outsAt0 m c t.val t.isLt = out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t) (iblk m c 3 t) := by
  obtain ⟨n, hn⟩ := t
  cases n with
  | zero => exact rfl
  | succ n => exact (dif_pos h0).trans rfl

/-- At a later tile: the second case's contents over what the tile before left. -/
theorem outsAt0_B (c : Dev nD) (t : Fin cfg0.N) (h0 : ¬t.val % 128 = 0) :
    outsAt0 m c t.val t.isLt = out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) (iblk m c 3 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data of the one pipeline on core `c`: the arrays as launched; after the body each input's buffer at
    its block and the accumulator's at `outsAt0`; the plain invariant; the input matrix held in halves by its two
    windows, every other array whole; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt) := by dsimp only [dats]

/-- Each input window's buffer holds its block at every tile, fetched there or not: unfetched, its block index has
    not moved since the tile before. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-- At a later tile the accumulator's buffer holds what the body left at the tile before: it is written back after
    the last tile only. -/
theorem before0_4_B (c : Dev nD) (t : Fin cfg0.N) (h0 : ¬t.val % 128 = 0) (d) :
    (dats m 0 c).before 4 t d = (outsAt0 m c (t.val - 1) (Nat.lt_of_le_of_lt (Nat.sub_le _ _) t.isLt)) := by
  have hN : t.val < 128 := lt_of_lt_of_eq t.isLt (show cfg0.N = 128 from N_0)
  rw [Dat.before_out_kept _ 4 rfl t (by omega) (Bool.eq_false_iff.mpr fun h => by have := (flush0_4 _).mp h; dsimp only at this; omega)
    (fun _ => rfl) (fun _ _ => rfl)]
  dsimp only [dats]

end Cert.KernelIdeal.Hand

end
-- ==== Proof.KI.Oblig.lean ====
import proofs.«165239_j82600811037329_1_alg».proof.Proof.KI.Body

/-! The body obligation at a generic tile. The inputs' buffers hold their blocks; the closed form of the reset's
condition says which case the tile is in; at a later tile the accumulator's buffer holds what the tile before left;
so the case's whole-body run applies, the invariant passes through unread, and the core owes nothing throughout. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at tile `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 128 := lt_of_lt_of_eq t.isLt (show cfg0.N = 128 from N_0)
  by_cases h0 : t.val % 128 = 0
  · rw [outsAt0_A m c t h0]
    unfold out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A_4 c _ _ _ _ _ _ _ _ _ _ _ _ _ _ _ _)
  · rw [outsAt0_B m c t h0]
    simp only [before0_4_B m c t h0]
    unfold out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _)

/-- The library's body obligation, at every tile. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Pieces.lean ====
import proofs.«165239_j82600811037329_1_alg».proof.Proof.KI.Body
import Idealize.ShloMosaic.Lib.Pipeline.Value

/-! What each case leaves in the accumulator, as the body's own arithmetic. The stores the runs found are whole-cell
stores, and the loads read whole buffers (the eight-row block through its first row only), so what a case leaves
is the update payload applied to the tile, the first row of the next block, the two weight matrices, the validity
mask of the tile, and the accumulator's previous contents — at the first tile, the zero the reset just stored. -/

set_option maxRecDepth 16384

noncomputable section

open Idealize.ShloMosaic.View

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem offsets_zero : (![0, 0] : Fin 2 → Nat) = fun _ => 0 := by funext a; fin_cases a <;> rfl

/-- The first row of an eight-row block. -/
def row0 (x1 : Vec F S8x128 .f32) : Vec F S1x128 .f32 :=
  View.ld x1 (Rect.unit (s := S8x128) ![0, 0] S1x128.size inb_S8x128_S1x128_0_0)

/-- A later tile: the update over the running contents. -/
theorem out0_B_4_eq (c : Dev nD) (i : grid0.Coords) (arg1 : Memref sig .tc .vmem S2048x128 .f32) (harg1 : arg1.IsWhole) (arg2 : Memref sig .tc .vmem S8x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (hc0 : ¬cond0_0 i)
    (x0 : Vec F S2048x128 .f32) (x1 : Vec F S8x128 .f32) (x2 : Vec F S128x128 .f32) (x3 : Vec F S128x128 .f32) (xo4 : Vec F S1x1 .f32) :
    out0_B_4 c i arg1 harg1 arg2 harg2 arg3 harg3 arg4 harg4 arg5 harg5 hc0 x0 x1 x2 x3 xo4 = k0_pay2 (k0_pay3 x0 x3 x2 (row0 x1)) (k0_pay4 i) xo4 := by
  unfold out0_B_4
  rw [View.read_writes_eq_canon _ _ _ (cover0_B_4 c i arg1 harg1 arg2 harg2 arg3 harg3 arg4 harg4 arg5 harg5 hc0 x0 x1 x2 x3 xo4)]
  unfold kernelRun0_B
  dsimp only
  sl_unfold_words
  rw [View.canon_unit_zero (S := S1x1) offsets_zero]
  simp only [View.readAt_eq_ld, harg1.read_unread, harg2.read_unread, harg3.read_unread, harg4.read_unread, harg5.read_unread,
    View.ld_unit_zero (S := S2048x128) offsets_zero, View.ld_unit_zero (S := S128x128) offsets_zero, View.ld_unit_zero (S := S1x1) offsets_zero]
  rfl

/-- The first tile: the update over the zero the reset stored. -/
theorem out0_A_4_eq (c : Dev nD) (i : grid0.Coords) (arg1 : Memref sig .tc .vmem S2048x128 .f32) (harg1 : arg1.IsWhole) (arg2 : Memref sig .tc .vmem S8x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (hc0 : cond0_0 i)
    (x0 : Vec F S2048x128 .f32) (x1 : Vec F S8x128 .f32) (x2 : Vec F S128x128 .f32) (x3 : Vec F S128x128 .f32) :
    out0_A_4 c i arg1 harg1 arg2 harg2 arg3 harg3 arg4 harg4 arg5 harg5 hc0 x0 x1 x2 x3 = k0_pay2 (k0_pay3 x0 x3 x2 (row0 x1)) (k0_pay4 i) (k0_pay1 (F := F)) := by
  unfold out0_A_4
  rw [View.read_writes_eq_canon _ _ _ (cover0_A_4 c i arg1 harg1 arg2 harg2 arg3 harg3 arg4 harg4 arg5 harg5 hc0 x0 x1 x2 x3)]
  unfold kernelRun0_A
  dsimp only
  sl_unfold_words
  rw [View.canon_cons_unit_zero (S := S1x1) offsets_zero]
  simp only [View.readAt_eq_ld, harg1.read_unread, harg2.read_unread, harg3.read_unread, harg4.read_unread,
    View.readCov_unit_zero (S := S1x1) _ offsets_zero,
    View.ld_unit_zero (S := S2048x128) offsets_zero, View.ld_unit_zero (S := S128x128) offsets_zero]
  rfl

end Cert.KernelIdeal.Hand

end
-- ==== Proof.Spec.lean ====
import Idealize.ShloMosaic.PureOps.Ideal
import Idealize.ShloMosaic.PureOps.Ideal.Laws
import Idealize.ShloMosaic.Lib.ValueIdx

/-! The mathematics of the loss, on the extended reals.

For a matrix `X` of 262144 rows and 128 columns and two square matrices `WQ`, `WK` of order 128:
`keys = X · WKᵀ`, `logit = keys · WQ`, `out[s, n] = softplus(logit[s, n]) · (the sum of row s of X)`, and the number
of interest is the sum over the first 262143 rows `s` and all columns `n` of `(out[s, n] − X[s + 1, n])²`.
The same number is also the sum over 128 tiles of 2048 rows of the tile's own sum, in which the one row with no
successor (the very last) counts zero. -/

noncomputable section

open scoped BigOperators

namespace Cert.Spec

open Idealize.ShloMosaic Idealize.ShloMosaic.ValueIdx

abbrev SX : Shape := ⟨2, ![262144, 128]⟩
abbrev SW : Shape := ⟨2, ![128, 128]⟩

/-- softplus as both programs spell it: the larger of `z` and `0`, plus `log (1 + e^(−|z|))`. -/
def sp (z : EReal) : EReal := max z 0 + Ideal.log1p (Ideal.exp (-(max z (-z))))

variable (X : SX.Idx → EReal) (WQ WK : SW.Idx → EReal)

/-- `keys[s, k] = Σ_j X[s, j] · WK[k, j]`. -/
def keys (s : Fin 262144) (k : Fin 128) : EReal := ∑ j : Fin 128, X (ix2 s j) * WK (ix2 k j)
/-- `logit[s, n] = Σ_k keys[s, k] · WQ[k, n]`. -/
def logit (s : Fin 262144) (n : Fin 128) : EReal := ∑ k : Fin 128, keys X WK s k * WQ (ix2 k n)
/-- The sum of row `s`. -/
def rowsum (s : Fin 262144) : EReal := ∑ j : Fin 128, X (ix2 s j)
/-- `out[s, n]`. -/
def outv (s : Fin 262144) (n : Fin 128) : EReal := sp (logit X WQ WK s n) * rowsum X s
/-- The squared difference between `out[s, n]` and the next row's entry, for a row that has a successor. -/
def sqd (s : Fin 262143) (n : Fin 128) : EReal :=
  (outv X WQ WK ⟨s.val, by have := s.isLt; omega⟩ n - X (ix2 ⟨s.val + 1, by have := s.isLt; omega⟩ n))
    * (outv X WQ WK ⟨s.val, by have := s.isLt; omega⟩ n - X (ix2 ⟨s.val + 1, by have := s.isLt; omega⟩ n))
/-- The whole sum of squares. -/
def total : EReal := ∑ s : Fin 262143, ∑ n : Fin 128, sqd X WQ WK s n
/-- Tile `t`'s share of it: rows `2048 t … 2048 t + 2047`, the matrix's last row counting zero. -/
def tileSum (t : Fin 128) : EReal :=
  ∑ r : Fin 2048, ∑ n : Fin 128,
    if h : 2048 * t.val + r.val < 262143 then sqd X WQ WK ⟨2048 * t.val + r.val, h⟩ n else 0

end Cert.Spec

end
-- ==== Proof.KI.Elem3.lean ====
import proofs.«165239_j82600811037329_1_alg».proof.Proof.Gen.KernelIdeal.Skeleton
import proofs.«165239_j82600811037329_1_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost

noncomputable section

open scoped BigOperators

namespace Cert.KernelIdeal.Elem

open Cert.KernelIdeal Cert.KernelIdeal.Gen Idealize.ShloMosaic Idealize.ShloMosaic.ValueIdx

/-! ## The contraction of a 2048 × 128 matrix with a 128 × 128 one, read at an entry -/

theorem mm_lhs_0 (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
theorem mm_lhs_1 (i : S2048x128.Idx) (q : dot_S2048x128_S128x128_S2048x128_1_0_0_1_n_n.contr.Idx) :
    (dot_S2048x128_S128x128_S2048x128_1_0_0_1_n_n.lhsIdx i q 1).val = (q ⟨0, by decide⟩).val :=
  dot_S2048x128_S128x128_S2048x128_1_0_0_1_n_n.lhsIdx_val_of_single rfl i q
theorem mm_rhs_0 (i : S2048x128.Idx) (q : dot_S2048x128_S128x128_S2048x128_1_0_0_1_n_n.contr.Idx) :
    (dot_S2048x128_S128x128_S2048x128_1_0_0_1_n_n.rhsIdx i q 0).val = (q ⟨0, by decide⟩).val :=
  dot_S2048x128_S128x128_S2048x128_1_0_0_1_n_n.rhsIdx_val_of_single rfl i q
theorem mm_rhs_1 (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- Into a zero accumulator the product's entry (r, n) is the sum over k of a[r, k] · b[k, n]. -/
theorem mm_apply {φ₁ φ₂ : FTy} (a : FVec Ideal S2048x128 φ₁) (b : FVec Ideal S128x128 φ₂) (r : Fin 2048) (n : Fin 128) :
    matmul dot_S2048x128_S128x128_S2048x128_1_0_0_1_n_n none a b (constant S2048x128 .f32 0x00000000#32) (ix2 r n)
      = ∑ k : Fin 128, a (ix2 r k) * b (ix2 k n) := by
  simp only [matmul]
  rw [Ideal.matmul_constant_zero_apply, ← Equiv.sum_comp (ValueIdx.contrEquiv1 dot_S2048x128_S128x128_S2048x128_1_0_0_1_n_n 128 rfl rfl).symm]
  refine Finset.sum_congr rfl fun k _ => ?_
  have hk := ValueIdx.contrEquiv1_symm_val dot_S2048x128_S128x128_S2048x128_1_0_0_1_n_n 128 rfl rfl k
  have el : dot_S2048x128_S128x128_S2048x128_1_0_0_1_n_n.lhsIdx (ix2 r n) ((ValueIdx.contrEquiv1 dot_S2048x128_S128x128_S2048x128_1_0_0_1_n_n 128 rfl rfl).symm k) = ix2 r k := funext fun a => Fin.ext (by
    match a with
    | ⟨0, _⟩ => exact mm_lhs_0 _ _
    | ⟨1, _⟩ => exact (mm_lhs_1 _ _).trans hk)
  have er : dot_S2048x128_S128x128_S2048x128_1_0_0_1_n_n.rhsIdx (ix2 r n) ((ValueIdx.contrEquiv1 dot_S2048x128_S128x128_S2048x128_1_0_0_1_n_n 128 rfl rfl).symm k) = ix2 k n := funext fun a => Fin.ext (by
    match a with
    | ⟨0, _⟩ => exact (mm_rhs_0 _ _).trans hk
    | ⟨1, _⟩ => exact mm_rhs_1 _ _)
  rw [el, er]

/-! ## The row sum, kept as a column and laid across the 128 lanes -/

/-- The lane sum of row r. -/
theorem rowsum_apply (x : FVec Ideal S2048x128 .f32) (h : S2048x128.Reduces [1] S2048) (hφ : FKind.Formats .f32)
    (hacc : (0x00000000#32 : BitVec 32) = FKind.add.neutral .f32 hφ) (r : Fin 2048) :
    multiReduction .add [1] S2048 x 0x00000000#32 h hφ hacc (ix1 r) = ∑ j : Fin 128, x (ix2 r j) := by
  refine (Ideal.multiReduction_add_single x _ h hφ hacc (ix1 r)).trans ?_
  refine Finset.sum_congr rfl fun k _ => ?_
  exact congrArg x (funext fun a => Fin.ext (by match a with | ⟨0, _⟩ => rfl | ⟨1, _⟩ => rfl))

/-- A vector of 2048 entries viewed as a column: entry (r, c) is entry r. -/
theorem col_cast_apply {α : Type} (y : S2048.Idx → α) (h : S2048.ShapeCasts S2048x1) (r : Fin 2048) (c : Fin 1) :
    shapeCast S2048x1 y h (ix2 r c) = y (ix1 r) :=
  shapeCast_apply y h _ _ (by
    have hc : c.val = 0 := by omega
    rw [Shape.rowMajor_val_two, Shape.rowMajor_val_one]
    show r.val = r.val * 1 + c.val
    omega)

/-- A column laid across 128 lanes: entry (r, n) is the column's entry r. -/
theorem col_bcast_apply {α : Type} (y : S2048x1.Idx → α) (h : S2048x1.Broadcasts S2048x128) (r : Fin 2048) (n : Fin 128) :
    broadcastTo S2048x128 y h (ix2 r n) = y (ix2 r (0 : Fin 1)) := by
  refine broadcastTo_apply y h (ix2 r n) (ix2 r (0 : Fin 1)) fun ax => ?_
  match ax with
  | ⟨0, _⟩ =>
    show r.val = if (2048 : ℕ) = 1 then 0 else r.val
    rw [if_neg (by decide)]
  | ⟨1, _⟩ =>
    show (0 : ℕ) = if (1 : ℕ) = 1 then 0 else n.val
    rw [if_pos rfl]

/-- The three together: every lane of row r holds the row's sum. -/
theorem rowsum_bcast_apply (x : FVec Ideal S2048x128 .f32) (h : S2048x128.Reduces [1] S2048) (hφ : FKind.Formats .f32)
    (hacc : (0x00000000#32 : BitVec 32) = FKind.add.neutral .f32 hφ) (hc : S2048.ShapeCasts S2048x1)
    (hb : S2048x1.Broadcasts S2048x128) (r : Fin 2048) (n : Fin 128) :
    broadcastTo S2048x128 (shapeCast S2048x1 (multiReduction .add [1] S2048 x 0x00000000#32 h hφ hacc) hc) hb (ix2 r n)
      = ∑ j : Fin 128, x (ix2 r j) :=
  (col_bcast_apply _ hb r n).trans ((col_cast_apply _ hc r 0).trans (rowsum_apply x h hφ hacc r))

/-! ## The row below: a rotation by 2047 along the rows, with the tile's last row replaced -/

/-- Rotating the rows by 2047 brings row r + 1 (around the end) to row r. -/
theorem rot_apply {α : Type} (x : S2048x128.Idx → α) (h : S2048x128.Rotates 0 none) (r : Fin 2048) (n : Fin 128) :
    dynamicRotate 0 2047#32 none x h (ix2 r n)
      = x (ix2 (⟨(r.val + 1) % 2048, Nat.mod_lt _ (by decide)⟩ : Fin 2048) n) := by
  refine dynamicRotate_apply 0 2047#32 x h (ix2 r n) _ fun b => ?_
  match b with
  | ⟨0, _⟩ =>
    show (r.val + 1) % 2048 = if (0 : Fin 2) = 0 then (r.val + 2048 - 2047 % 2048) % 2048 else r.val
    rw [if_pos rfl]
    have := r.isLt
    omega
  | ⟨1, _⟩ =>
    show n.val = if (1 : Fin 2) = 0 then (n.val + 128 - 2047 % 128) % 128 else n.val
    rw [if_neg (by decide)]

/-- One row laid down all 2048 rows, after a cast to its own shape: entry (r, n) is the row's entry n. -/
theorem row_bcast_apply {α : Type} (v : S1x128.Idx → α) (hc : S1x128.ShapeCasts S1x128) (hb : S1x128.Broadcasts S2048x128)
    (r : Fin 2048) (n : Fin 128) :
    broadcastTo S2048x128 (shapeCast S1x128 v hc) hb (ix2 r n) = v (ix2 (0 : Fin 1) n) := by
  rw [shapeCast_self]
  exact broadcastTo_1b_ab_apply v hb r n

/-- The row counter compared with 2047 selects on r = 2047. -/
theorem last_row_select {α : Type} (h : S2048x128.Iotas .tc 32 [0]) (A B : S2048x128.Idx → α) (r : Fin 2048) (n : Fin 128) :
    select (cmpi .eq (iota .tc S2048x128 32 [0] h) (broadcast S2048x128 2047#32)) A B (ix2 r n)
      = if r.val = 2047 then A (ix2 r n) else B (ix2 r n) := by
  show Scalar.select (IntOp.cmpi .eq (iota .tc S2048x128 32 [0] h (ix2 r n)) 2047#32) (A (ix2 r n)) (B (ix2 r n)) = _
  rw [iota_single_apply]
  show Scalar.select (IntOp.cmpi .eq (BitVec.ofNat 32 r.val) 2047#32) (A (ix2 r n)) (B (ix2 r n)) = _
  by_cases hr : r.val = 2047
  · rw [if_pos hr, hr]
    rfl
  · rw [if_neg hr]
    have hne : BitVec.ofNat 32 r.val ≠ 2047#32 := by
      intro he
      have h2 := congrArg BitVec.toNat he
      rw [BitVec.toNat_ofNat, BitVec.toNat_ofNat] at h2
      have := r.isLt
      omega
    have hb : IntOp.cmpi .eq (BitVec.ofNat 32 r.val) 2047#32 = 0#1 := by
      show BitVec.ofBool (BitVec.ofNat 32 r.val == 2047#32) = 0#1
      rw [beq_eq_false_iff_ne.mpr hne]
      rfl
    rw [hb]
    exact select_zero _ _

/-- The subtrahend: the separately fetched row at the tile's last row, the next row elsewhere. -/
theorem next_row_apply (x : FVec Ideal S2048x128 .f32) (v : FVec Ideal S1x128 .f32) (hi : S2048x128.Iotas .tc 32 [0])
    (hc : S1x128.ShapeCasts S1x128) (hb : S1x128.Broadcasts S2048x128) (hr : S2048x128.Rotates 0 none)
    (r : Fin 2048) (n : Fin 128) :
    select (cmpi .eq (iota .tc S2048x128 32 [0] hi) (broadcast S2048x128 2047#32))
        (broadcastTo S2048x128 (shapeCast S1x128 v hc) hb) (dynamicRotate 0 2047#32 none x hr) (ix2 r n)
      = if r.val = 2047 then v (ix2 (0 : Fin 1) n)
        else x (ix2 (⟨(r.val + 1) % 2048, Nat.mod_lt _ (by decide)⟩ : Fin 2048) n) := by
  rw [last_row_select, row_bcast_apply, rot_apply]

/-! ## The softplus, entry by entry -/

/-- The guarded softplus at an entry is the softplus of the entry: the guard compares a number with itself, and
    subtracting or adding zero changes nothing. -/
theorem sp_vec_apply {s : Shape} (V : FVec Ideal s .f32) (i : s.Idx) :
    select (cmpf .one (subf V (broadcast s (Scalar.ofBits (F := Ideal) .f32 0x00000000#32))) (subf V (broadcast s (Scalar.ofBits (F := Ideal) .f32 0x00000000#32))))
        (addf V (broadcast s (Scalar.ofBits (F := Ideal) .f32 0x00000000#32)))
        (addf (maximumf V (broadcast s (Scalar.ofBits (F := Ideal) .f32 0x00000000#32))) (log1p (exp (subf (broadcast s (Scalar.ofBits (F := Ideal) .f32 0x00000000#32)) (absf (subf V (broadcast s (Scalar.ofBits (F := Ideal) .f32 0x00000000#32)))))))) i
      = Cert.Spec.sp (V i) := by
  show Scalar.select (Ideal.cmp .one (V i - Ideal.ofBits .f32 0x00000000#32) (V i - Ideal.ofBits .f32 0x00000000#32))
      (V i + Ideal.ofBits .f32 0x00000000#32)
      (max (V i) (Ideal.ofBits .f32 0x00000000#32)
        + Ideal.log1p (Ideal.exp (Ideal.ofBits .f32 0x00000000#32
            - max (V i - Ideal.ofBits .f32 0x00000000#32) (-(V i - Ideal.ofBits .f32 0x00000000#32))))) = _
  rw [Ideal.ofBits_zero_f32]
  generalize V i = z
  have hc : Ideal.cmp .one (z - 0) (z - 0) = 0#1 := by
    show BitVec.ofBool (decide (z - 0 ≠ z - 0)) = 0#1
    rw [decide_eq_false (fun hne => hne rfl)]
    rfl
  rw [hc, select_zero, sub_zero, zero_sub]
  rfl

/-! ## The doubly contracted product -/

/-- Entry (r, n) of (x · wkᵀ) · wq, both products into zero accumulators. -/
theorem logit_apply (x0 : FVec Ideal S2048x128 .f32) (wk wq : FVec Ideal S128x128 .f32) (hlt : FTy.bits .bf16 < FTy.bits .f32)
    (ht : S128x128.Transposes [1, 0] S128x128) (r : Fin 2048) (n : Fin 128) :
    matmul dot_S2048x128_S128x128_S2048x128_1_0_0_1_n_n none
        (truncf .bf16 (matmul dot_S2048x128_S128x128_S2048x128_1_0_0_1_n_n none (truncf .bf16 x0 hlt)
          (transpose S128x128 [1, 0] (truncf .bf16 wk hlt) ht) (constant S2048x128 .f32 0x00000000#32)) hlt)
        (truncf .bf16 wq hlt) (constant S2048x128 .f32 0x00000000#32) (ix2 r n)
      = ∑ k : Fin 128, (∑ j : Fin 128, x0 (ix2 r j) * wk (ix2 k j)) * wq (ix2 k n) := by
  refine (mm_apply _ _ r n).trans ?_
  refine Finset.sum_congr rfl fun k _ => ?_
  refine congrArg₂ (· * ·) ?_ rfl
  refine (mm_apply _ _ r k).trans ?_
  refine Finset.sum_congr rfl fun j _ => ?_
  refine congrArg₂ (· * ·) rfl ?_
  exact transpose_ix2_apply _ ht j k

/-- The body's difference before masking, at row `r` and column `n` of a tile: softplus of the doubly contracted
    product, times the row's sum, minus the row below — which for the tile's last row is the separately fetched row. -/
theorem pay3_apply (x0 : Vec Ideal S2048x128 .f32) (wk wq : Vec Ideal S128x128 .f32) (v32 : Vec Ideal S1x128 .f32)
    (r : Fin 2048) (n : Fin 128) :
    k0_pay3 (F := Ideal) x0 wk wq v32 (ix2 r n)
      = Cert.Spec.sp (∑ k : Fin 128, (∑ j : Fin 128, x0 (ix2 r j) * wk (ix2 k j)) * wq (ix2 k n)) * (∑ j : Fin 128, x0 (ix2 r j))
        - (if r.val = 2047 then v32 (ix2 (0 : Fin 1) n) else x0 (ix2 (⟨(r.val + 1) % 2048, Nat.mod_lt _ (by decide)⟩ : Fin 2048) n)) := by
  unfold k0_pay3
  refine (subf_apply _ _ _).trans ?_
  refine congrArg₂ (· - ·) ?_ (next_row_apply x0 v32 _ _ _ _ r n)
  refine (mulf_apply _ _ _).trans ?_
  refine congrArg₂ (· * ·) ?_ (rowsum_bcast_apply x0 _ _ _ _ _ r n)
  exact (sp_vec_apply _ _).trans (congrArg Cert.Spec.sp (logit_apply x0 wk wq _ _ r n))

end Cert.KernelIdeal.Elem

end
-- ==== Proof.KI.Elem2.lean ====
import proofs.«165239_j82600811037329_1_alg».proof.Proof.Gen.KernelIdeal.Skeleton
import proofs.«165239_j82600811037329_1_alg».proof.Proof.Spec
import proofs.«165239_j82600811037329_1_alg».proof.Proof.KI.Elem3
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost

noncomputable section

open scoped BigOperators

namespace Cert.KernelIdeal.Elem

open Cert.KernelIdeal Cert.KernelIdeal.Gen Idealize.ShloMosaic Idealize.ShloMosaic.ValueIdx

/-- The stored zero. -/
theorem pay1_zero : k0_pay1 (F := Ideal) (ix2 (0 : Fin 1) (0 : Fin 1)) = 0 := by
  show Ideal.ofBits .f32 0x00000000#32 = 0
  exact Ideal.ofBits_zero_f32

/-- The word `r + t · 2048`, computed in 32 bits, is the number `2048 t + r`: nothing wraps, the number being below 2¹⁸. -/
private theorem word_eq (t r : Nat) (ht : t < 128) (hr : r < 2048) :
    IntOp.addi (BitVec.ofNat 32 r) (Scalar.muli (BitVec.ofNat 32 t) 2048#32) = BitVec.ofNat 32 (2048 * t + r) := by
  apply BitVec.eq_of_toNat_eq
  simp only [IntOp.addi, Scalar.muli, IntOp.muli, BitVec.toNat_add, BitVec.toNat_mul, BitVec.toNat_ofNat]
  omega

/-- The comparison `≠ 262143` of the word of a number below 2³² is the comparison of the numbers. -/
private theorem ne_word (m : Nat) (hm : m < 2 ^ 32) :
    IntOp.cmpi .ne (BitVec.ofNat 32 m) 262143#32 = if m = 262143 then 0#1 else 1#1 := by
  by_cases h : m = 262143
  · subst h; rw [if_pos rfl]; decide
  · rw [if_neg h]
    have hne : BitVec.ofNat 32 m ≠ 262143#32 := by
      intro e
      have e' := congrArg BitVec.toNat e
      simp only [BitVec.toNat_ofNat] at e'
      omega
    simp only [IntOp.cmpi]
    rw [bne_iff_ne.2 hne]
    rfl

/-- The validity mask at row `r` of tile `t`: set unless the row is the matrix's very last (262143). -/
theorem pay4_apply (i : grid0.Coords) (t : Fin 128) (hi : (i 0).val = t.val) (r : Fin 2048) (n : Fin 128) :
    k0_pay4 i (ix2 r n) = if 2048 * t.val + r.val = 262143 then 0#1 else 1#1 := by
  have hr := r.isLt
  have ht := t.isLt
  show IntOp.cmpi .ne (IntOp.addi (iota .tc S2048x128 32 [0] iota_S2048x128_d0_w32 (ix2 r n))
      (Scalar.muli (BitVec.ofNat 32 (i 0).val) 2048#32)) 262143#32 = _
  rw [iota_single_apply, hi]
  show IntOp.cmpi .ne (IntOp.addi (BitVec.ofNat 32 r.val) (Scalar.muli (BitVec.ofNat 32 t.val) 2048#32)) 262143#32 = _
  rw [word_eq t.val r.val ht hr, ne_word _ (by omega)]

/-- The accumulator's update: what it held plus the sum over the tile of the masked squares. -/
theorem pay2_apply (v36 : FVec Ideal S2048x128 .f32) (v41 : IVec S2048x128 1) (acc : Vec Ideal S1x1 .f32) :
    k0_pay2 (F := Ideal) v36 v41 acc (ix2 (0 : Fin 1) (0 : Fin 1))
      = acc (ix2 (0 : Fin 1) (0 : Fin 1))
        + ∑ r : Fin 2048, ∑ n : Fin 128,
            (if v41 (ix2 r n) = 1#1 then v36 (ix2 r n) else 0) * (if v41 (ix2 r n) = 1#1 then v36 (ix2 r n) else 0) := by
  let z : FVec Ideal S2048x128 .f32 := broadcast S2048x128 (Scalar.ofBits .f32 0x00000000#32)
  let V43 : FVec Ideal S2048x128 .f32 := select v41 v36 z
  let V44 : FVec Ideal S2048x128 .f32 := mulf V43 V43
  let V45 : FVec Ideal S2048 .f32 := multiReduction .add [1] S2048 V44 0x00000000#32 reduces_S2048x128_S2048 (.inl rfl) rfl
  let V46 : FVec Ideal S2048x1 .f32 := shapeCast S2048x1 V45 shapeCasts_S2048_S2048x1
  let V47 : FVec Ideal S1 .f32 := multiReduction .add [0] S1 V46 0x00000000#32 reduces_S2048x1_S1 (.inl rfl) rfl
  show (shapeCast S1x1 acc shapeCasts_S1x1_S1x1) (ix2 (0 : Fin 1) (0 : Fin 1)) + (shapeCast S1x1 V47 shapeCasts_S1_S1x1) (ix2 (0 : Fin 1) (0 : Fin 1)) = _
  rw [shapeCast_self]
  congr 1
  -- the outer cast and the sum over the 2048 rows
  refine (shapeCast_a_1a_apply V47 shapeCasts_S1_S1x1 0 0).trans ?_
  refine (Ideal.multiReduction_add_single V46 _ reduces_S2048x1_S1 (.inl rfl) rfl (ix1 (0 : Fin 1))).trans ?_
  refine Finset.sum_congr rfl fun (r : Fin 2048) _ => ?_
  -- the column of row sums read at row r
  refine (shapeCast_apply V45 shapeCasts_S2048_S2048x1 _ (ix1 r) (by
    rw [Shape.rowMajor_val_two, Shape.rowMajor_val_one]
    show r.val = r.val * 1 + 0
    omega)).trans ?_
  -- the sum over the 128 lanes of row r
  refine (Ideal.multiReduction_add_single V44 _ reduces_S2048x128_S2048 (.inl rfl) rfl (ix1 r)).trans ?_
  refine Finset.sum_congr rfl fun (n : Fin 128) _ => ?_
  have hidx : reduces_S2048x128_S2048.lift (ix1 r) n = ix2 r n :=
    funext fun d => Fin.ext (match d with | ⟨0, _⟩ => rfl | ⟨1, _⟩ => rfl)
  rw [hidx]
  show Scalar.select (v41 (ix2 r n)) (v36 (ix2 r n)) (Ideal.ofBits .f32 0x00000000#32)
      * Scalar.select (v41 (ix2 r n)) (v36 (ix2 r n)) (Ideal.ofBits .f32 0x00000000#32) = _
  rw [Ideal.ofBits_zero_f32]
  rfl

/-- One tile's step: with the tile's rows and the first row of the next tile read off the matrix, the accumulator
    gains exactly the tile's share of the sum of squares. -/
theorem tile_step (X : Cert.Spec.SX.Idx → EReal) (WQ WK : Cert.Spec.SW.Idx → EReal) (t : Fin 128)
    (i : grid0.Coords) (hi : (i 0).val = t.val)
    (x0 : Vec Ideal S2048x128 .f32)
    (hx0 : ∀ (r : Fin 2048) (j : Fin 128), x0 (ix2 r j) = X (ix2 (⟨2048 * t.val + r.val, by have := t.isLt; have := r.isLt; omega⟩ : Fin 262144) j))
    (v32 : Vec Ideal S1x128 .f32)
    (hv32 : ∀ (h : t.val + 1 < 128) (n : Fin 128), v32 (ix2 (0 : Fin 1) n) = X (ix2 (⟨2048 * (t.val + 1), by omega⟩ : Fin 262144) n))
    (acc : Vec Ideal S1x1 .f32) :
    k0_pay2 (F := Ideal) (k0_pay3 (F := Ideal) x0 WK WQ v32) (k0_pay4 i) acc (ix2 (0 : Fin 1) (0 : Fin 1))
      = acc (ix2 (0 : Fin 1) (0 : Fin 1)) + Cert.Spec.tileSum X WQ WK t := by
  have htl := t.isLt
  -- two rows of X with the same number are the same row
  have hX : ∀ (a b : Fin 262144) (c : Fin 128), a.val = b.val → X (ix2 a c) = X (ix2 b c) :=
    fun a b c h => by rw [Fin.ext h]
  rw [pay2_apply]
  congr 1
  unfold Cert.Spec.tileSum
  refine Finset.sum_congr rfl fun r _ => Finset.sum_congr rfl fun n _ => ?_
  have hrl := r.isLt
  rw [pay4_apply i t hi r n]
  by_cases hlast : 2048 * t.val + r.val = 262143
  · -- the matrix's last row: the mask is clear and the summand is 0 · 0
    rw [if_pos hlast, if_neg (by decide : ¬ (0#1 = 1#1)), dif_neg (by omega), mul_zero]
  · have hlt : 2048 * t.val + r.val < 262143 := by omega
    rw [if_neg hlast, if_pos rfl, dif_pos hlt]
    have hP : k0_pay3 (F := Ideal) x0 WK WQ v32 (ix2 r n)
        = Cert.Spec.outv X WQ WK ⟨2048 * t.val + r.val, by omega⟩ n - X (ix2 ⟨2048 * t.val + r.val + 1, by omega⟩ n) := by
      rw [pay3_apply]
      congr 1
      · unfold Cert.Spec.outv Cert.Spec.logit Cert.Spec.keys Cert.Spec.rowsum
        simp only [hx0]
      · by_cases h47 : r.val = 2047
        · -- the tile's last row: the row below is the separately fetched one
          rw [if_pos h47, hv32 (by omega) n]
          exact hX _ _ n (by show 2048 * (t.val + 1) = 2048 * t.val + r.val + 1; omega)
        · -- any other row: the row below lies inside the tile
          rw [if_neg h47, hx0]
          exact hX _ _ n (by show 2048 * t.val + (r.val + 1) % 2048 = 2048 * t.val + r.val + 1; omega)
    unfold Cert.Spec.sqd
    rw [hP]

end Cert.KernelIdeal.Elem

end
-- ==== Proof.TileSum.lean ====
import proofs.«165239_j82600811037329_1_alg».proof.Proof.Spec
import Mathlib.Algebra.BigOperators.Fin
import Mathlib.Algebra.BigOperators.Intervals
import Mathlib.Data.Fintype.BigOperators
import Mathlib.Logic.Equiv.Fin.Basic

/-! The sum of squares, tile by tile: 262144 = 128 · 2048 rows fall into 128 tiles of 2048 rows; summing the tiles'
shares, in which the one row without a successor counts zero, gives the sum over the first 262143 rows. Only
commutativity and associativity of addition on the extended reals are used. -/

noncomputable section

open scoped BigOperators

namespace Cert.Spec

/-- Every number below 262144 = 128 · 2048 is `2048 t + r` for exactly one pair `t < 128`, `r < 2048`; so summing
`g (2048 t + r)` over the pairs is summing `g s` over `s < 262144`. -/
theorem sum_tiles_nat {M : Type*} [AddCommMonoid M] (g : ℕ → M) :
    ∑ t : Fin 128, ∑ r : Fin 2048, g (2048 * t.val + r.val) = ∑ s ∈ Finset.range 262144, g s := by
  have e : 128 * 2048 = 262144 := by norm_num
  rw [← Fin.sum_univ_eq_sum_range g 262144,
    ← Fintype.sum_prod_type' (fun (t : Fin 128) (r : Fin 2048) => g (2048 * t.val + r.val))]
  refine Fintype.sum_equiv (finProdFinEquiv.trans (finCongr e)) _ _ ?_
  rintro ⟨t, r⟩
  show g (2048 * t.val + r.val) = g (r.val + 2048 * t.val)
  rw [Nat.add_comm]

/-- The same with the last index, 262143, counting zero: what is left is the sum over the first 262143 indices. -/
theorem sum_tiles {M : Type*} [AddCommMonoid M] (F : Fin 262143 → M) :
    ∑ t : Fin 128, ∑ r : Fin 2048,
      (if h : 2048 * t.val + r.val < 262143 then F ⟨2048 * t.val + r.val, h⟩ else 0)
      = ∑ s : Fin 262143, F s := by
  refine (sum_tiles_nat (fun s : ℕ => if h : s < 262143 then F ⟨s, h⟩ else 0)).trans ?_
  have e : (262144 : ℕ) = 262143 + 1 := by norm_num
  rw [e, Finset.sum_range_succ, dif_neg (lt_irrefl _), add_zero,
    ← Fin.sum_univ_eq_sum_range (fun s : ℕ => if h : s < 262143 then F ⟨s, h⟩ else 0) 262143]
  exact Finset.sum_congr rfl (fun s _ => dif_pos s.isLt)

variable (X : SX.Idx → EReal) (WQ WK : SW.Idx → EReal)

theorem sum_tileSum : ∑ t : Fin 128, tileSum X WQ WK t = total X WQ WK := by
  unfold tileSum total
  refine Eq.trans ?_ (sum_tiles (fun s => ∑ n : Fin 128, sqd X WQ WK s n))
  refine Finset.sum_congr rfl (fun t _ => Finset.sum_congr rfl (fun r _ => ?_))
  by_cases h : 2048 * t.val + r.val < 262143
  · simp only [dif_pos h]
  · simp only [dif_neg h, Finset.sum_const_zero]

end Cert.Spec

end
-- ==== Proof.KI.Value.lean ====
import proofs.«165239_j82600811037329_1_alg».proof.Proof.KI.Pieces
import proofs.«165239_j82600811037329_1_alg».proof.Proof.KI.Elem2
import proofs.«165239_j82600811037329_1_alg».proof.Proof.TileSum
import Mathlib.Algebra.BigOperators.Fin

/-! The accumulator's value on the extended reals. Tile `t`'s block of the input matrix is rows 2048 t … 2048 t + 2047;
the eight-row block fetched beside it starts, for every tile but the last, at row 2048 (t + 1); the weight matrices'
blocks are the matrices. So each tile adds its share of the sum of squares to the accumulator, which after tile `n`
holds the sum of the shares of tiles 0 … n. -/

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The three argument arrays on core `c`. -/
abbrev X (c : Dev nD) : Cert.Spec.SX.Idx → EReal := m ((c : Thread nD τ).loc main_arg0)
abbrev WQ (c : Dev nD) : Cert.Spec.SW.Idx → EReal := m ((c : Thread nD τ).loc main_arg1)
abbrev WK (c : Dev nD) : Cert.Spec.SW.Idx → EReal := m ((c : Thread nD τ).loc main_arg2)

/-- The windows' block indices over the grid. -/
theorem tile_index : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem nextBlock_index : ∀ t : Fin cfg0.N, win0_1.index t (0 : Fin 2) = min ((t.val + 1) * 256) 32767 ∧ win0_1.index t (1 : Fin 2) = 0 :=
  (by decide +kernel : ∀ t : Fin grid0.N, win0_1.index t (0 : Fin 2) = min ((t.val + 1) * 256) 32767 ∧ win0_1.index t (1 : Fin 2) = 0)
theorem wq_index : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem wk_index : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem coords_val : ∀ t : Fin cfg0.N, (grid0.coords t 0).val = t.val :=
  (by decide +kernel : ∀ t : Fin grid0.N, (grid0.coords t 0).val = t.val)

/-- Tile `t`'s rows are rows `2048 t + r` of the matrix. -/
theorem blk0_apply (c : Dev nD) (t : Fin cfg0.N) (r : Fin 2048) (j : Fin 128) :
    (iblk m c 0 t : Vec Ideal S2048x128 .f32) (ix2 r j)
      = X m c (ix2 (⟨2048 * t.val + r.val, by have := lt_of_lt_of_eq t.isLt (show cfg0.N = 128 from N_0); have := r.isLt; omega⟩ : Fin 262144) j) := by
  unfold iblk
  show V m c main_arg0 (((cfg0.win 0).blk t).view.emb (ix2 r j)) = _
  refine congrArg (m ((c : Thread nD τ).loc main_arg0)) (funext fun a => Fin.ext ?_)
  match a with
  | ⟨0, _⟩ =>
    show win0_0.index t (0 : Fin 2) * 2048 + 1 * r.val = 2048 * t.val + r.val
    rw [(tile_index t).1]; omega
  | ⟨1, _⟩ =>
    show win0_0.index t (1 : Fin 2) * 128 + 1 * j.val = j.val
    rw [(tile_index t).2]; omega

/-- The first row of an eight-row block, read at a column. -/
theorem row0_apply (x1 : Vec Ideal S8x128 .f32) (n : Fin 128) : row0 x1 (ix2 (0 : Fin 1) n) = x1 (ix2 (0 : Fin 8) n) := by
  unfold row0
  show x1 ((Rect.unit (s := S8x128) ![0, 0] S1x128.size inb_S8x128_S1x128_0_0).emb (ix2 (0 : Fin 1) n)) = _
  refine congrArg x1 (funext fun a => Fin.ext ?_)
  match a with
  | ⟨0, _⟩ => rfl
  | ⟨1, _⟩ => show 0 + 1 * n.val = n.val; omega

/-- For every tile but the last, the eight-row block fetched beside the tile starts at the next tile's first row. -/
theorem blk1_apply (c : Dev nD) (t : Fin cfg0.N) (ht : t.val + 1 < 128) (n : Fin 128) :
    row0 (iblk m c 1 t : Vec Ideal S8x128 .f32) (ix2 (0 : Fin 1) n)
      = X m c (ix2 (⟨2048 * (t.val + 1), by omega⟩ : Fin 262144) n) := by
  rw [row0_apply]
  unfold iblk
  show V m c main_arg0 (((cfg0.win 1).blk t).view.emb (ix2 (0 : Fin 8) n)) = _
  refine congrArg (m ((c : Thread nD τ).loc main_arg0)) (funext fun a => Fin.ext ?_)
  match a with
  | ⟨0, _⟩ =>
    show win0_1.index t (0 : Fin 2) * 8 + 1 * 0 = 2048 * (t.val + 1)
    rw [(nextBlock_index t).1]; omega
  | ⟨1, _⟩ =>
    show win0_1.index t (1 : Fin 2) * 128 + 1 * n.val = n.val
    rw [(nextBlock_index t).2]; omega

/-- The weight matrices' blocks are the matrices. -/
theorem blk2_eq (c : Dev nD) (t : Fin cfg0.N) : (iblk m c 2 t : Vec Ideal S128x128 .f32) = WQ m c := by
  funext y
  obtain ⟨p, q, rfl⟩ : ∃ (p : Fin 128) (q : Fin 128), y = ix2 p q := ⟨y 0, y 1, eq_ix2 y⟩
  unfold iblk
  show V m c main_arg1 (((cfg0.win 2).blk t).view.emb (ix2 p q)) = _
  refine congrArg (m ((c : Thread nD τ).loc main_arg1)) (funext fun a => Fin.ext ?_)
  match a with
  | ⟨0, _⟩ =>
    show win0_2.index t (0 : Fin 2) * 128 + 1 * p.val = p.val
    rw [(wq_index t).1]; omega
  | ⟨1, _⟩ =>
    show win0_2.index t (1 : Fin 2) * 128 + 1 * q.val = q.val
    rw [(wq_index t).2]; omega
theorem blk3_eq (c : Dev nD) (t : Fin cfg0.N) : (iblk m c 3 t : Vec Ideal S128x128 .f32) = WK m c := by
  funext y
  obtain ⟨p, q, rfl⟩ : ∃ (p : Fin 128) (q : Fin 128), y = ix2 p q := ⟨y 0, y 1, eq_ix2 y⟩
  unfold iblk
  show V m c main_arg2 (((cfg0.win 3).blk t).view.emb (ix2 p q)) = _
  refine congrArg (m ((c : Thread nD τ).loc main_arg2)) (funext fun a => Fin.ext ?_)
  match a with
  | ⟨0, _⟩ =>
    show win0_3.index t (0 : Fin 2) * 128 + 1 * p.val = p.val
    rw [(wk_index t).1]; omega
  | ⟨1, _⟩ =>
    show win0_3.index t (1 : Fin 2) * 128 + 1 * q.val = q.val
    rw [(wk_index t).2]; omega

/-- One tile's step on the accumulator's cell, with the tile's blocks read off the argument arrays. -/
theorem step_at (c : Dev nD) (t : Fin cfg0.N) (acc : Vec Ideal S1x1 .f32) :
    k0_pay2 (F := Ideal) (k0_pay3 (F := Ideal) (iblk m c 0 t) (iblk m c 3 t) (iblk m c 2 t) (row0 (iblk m c 1 t))) (k0_pay4 (grid0.coords t)) acc (ix2 (0 : Fin 1) (0 : Fin 1))
      = acc (ix2 (0 : Fin 1) (0 : Fin 1))
        + Cert.Spec.tileSum (X m c) (WQ m c) (WK m c) ⟨t.val, lt_of_lt_of_eq t.isLt (show cfg0.N = 128 from N_0)⟩ := by
  rw [blk3_eq, blk2_eq]
  exact Cert.KernelIdeal.Elem.tile_step (X m c) (WQ m c) (WK m c) ⟨t.val, lt_of_lt_of_eq t.isLt (show cfg0.N = 128 from N_0)⟩
    (grid0.coords t) (coords_val t) (iblk m c 0 t) (fun r j => blk0_apply m c t r j)
    (row0 (iblk m c 1 t)) (fun h n => blk1_apply m c t h n) acc

/-- THE ACCUMULATION on the extended reals: after tile `n` the accumulator's cell holds the shares of tiles 0 … n. -/
theorem acc_eq (c : Dev nD) : ∀ (n : ℕ) (hn : n < cfg0.N),
    outsAt0 m c n hn (ix2 (0 : Fin 1) (0 : Fin 1))
      = ∑ t : Fin (n + 1), Cert.Spec.tileSum (X m c) (WQ m c) (WK m c) ⟨t.val, by have := lt_of_lt_of_eq hn (show cfg0.N = 128 from N_0); have := t.isLt; omega⟩
  | 0, hn => by
    rw [outsAt0_A m c ⟨0, hn⟩ (Nat.zero_mod _), out0_A_4_eq, step_at m c ⟨0, hn⟩, Cert.KernelIdeal.Elem.pay1_zero, zero_add]
    rw [Fin.sum_univ_one]
    rfl
  | n + 1, hn => by
    have hN : n + 1 < 128 := lt_of_lt_of_eq hn (show cfg0.N = 128 from N_0)
    have h0 : ¬ (n + 1) % 128 = 0 := by omega
    rw [outsAt0_B m c ⟨n + 1, hn⟩ h0, out0_B_4_eq, step_at m c ⟨n + 1, hn⟩]
    show outsAt0 m c n _ (ix2 (0 : Fin 1) (0 : Fin 1)) + _ = _
    rw [acc_eq c n (Nat.lt_of_succ_lt hn), Fin.sum_univ_castSucc (n := n + 1)]
    rfl

end Cert.KernelIdeal.Hand

end
-- ==== Proof.KI.Final.lean ====
import proofs.«165239_j82600811037329_1_alg».proof.Proof.KI.Value

/-! The accumulator's array after the run. Its window is written back once, after the last tile, and its one block
is the whole 1×1 array; so the array ends holding what the last tile left in the buffer, whose one cell is the sum
of all 128 tiles' shares: the specification's total. -/

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The last tile. -/
abbrev tLast : Fin cfg0.N := ⟨127, by rw [show cfg0.N = 128 from N_0]; decide⟩

/-- What the last tile leaves in the accumulator's buffer. -/
def lastOut (c : Dev nD) : Vec Ideal S1x1 .f32 := outsAt0 m c tLast.val tLast.isLt

/-- The last tile's block of the accumulator's window sits at offsets zero: the block is the whole 1×1 array. -/
theorem lastBlock_offsets : (fun a => win0_4.index tLast a * main_v0.ty.shape.size a) = fun _ => 0 :=
  funext fun a => by fin_cases a <;> decide +kernel

/-- Any contents of the 1×1 buffer, cut to the part the write-back moves, are the block at offsets zero of the 1×1
    array holding those contents. Stated over a variable, so that nothing unfolds. -/
theorem cut_eq_read (c : Dev nD) (R : Buf (Elt Ideal) ((c : Thread nD τ).loc main_v0)) :
    (cfg0.win 4).cut (grid0.coords tLast) R = ((cfg0.win 4).blk tLast).view.read (Elt Ideal) R :=
  (Memref.read_access_unit_zero (Elt Ideal) main_v0 lastBlock_offsets (fun a => by rw [congrFun lastBlock_offsets a]; simp) R).symm

/-- The one write-back writes what the last tile left. -/
theorem flushed_eq (c : Dev nD) (t : Fin cfg0.N) (hf : (cfg0.win 4).flush t = true) :
    (dats m 0 c).flushed 4 t = ((cfg0.win 4).blk t).view.read (Elt Ideal) (lastOut m c) := by
  have hN : cfg0.N = 128 := N_0
  have h127 : t.val = 127 := by have := (flush0_4 t).mp hf; have := t.isLt; omega
  obtain rfl : t = tLast := Fin.ext h127
  show (cfg0.win 4).cut (grid0.coords tLast) ((dats m 0 c).after 4 tLast) = _
  rw [after0_4]
  exact cut_eq_read c (lastOut m c)

/-- Every cell of the 1×1 array (there is one) lies in the last tile's block. -/
theorem mem_lastBlock (i : main_v0.ty.shape.Idx) : i ∈ ((View.whole main_v0).slice (win0_4.rect tLast)).set := by
  rw [View.set_slice_whole, Rect.mem_set_unit]
  intro a
  have h0 : (i 0 : Nat) < 1 := (i 0).isLt
  have h1 : (i 1 : Nat) < 1 := (i 1).isLt
  match a with
  | ⟨0, _⟩ =>
    show win0_4.index tLast 0 * win0_4.size 0 ≤ (i 0 : Nat) ∧ (i 0 : Nat) < win0_4.index tLast 0 * win0_4.size 0 + win0_4.xsize (grid0.coords tLast) 0
    rw [show win0_4.index tLast 0 * win0_4.size 0 = 0 from by decide +kernel, show win0_4.xsize (grid0.coords tLast) 0 = 1 from by decide +kernel]; omega
  | ⟨1, _⟩ =>
    show win0_4.index tLast 1 * win0_4.size 1 ≤ (i 1 : Nat) ∧ (i 1 : Nat) < win0_4.index tLast 1 * win0_4.size 1 + win0_4.xsize (grid0.coords tLast) 1
    rw [show win0_4.index tLast 1 * win0_4.size 1 = 0 from by decide +kernel, show win0_4.xsize (grid0.coords tLast) 1 = 1 from by decide +kernel]; omega

/-- So the array ends holding what the last tile left. -/
theorem final4 (c : Dev nD) : (dats m 0 c).arrAt 4 cfg0.N = lastOut m c :=
  (dats m 0 c).arrAt_eq_of_cover 4 (lastOut m c) (flushed_eq m c) fun i =>
    ⟨tLast, (flush0_4 tLast).mpr rfl, mem_lastBlock i⟩

/-- The sum of the shares of tiles 0 … 127 is the total. -/
theorem sum_all (c : Dev nD) (h : ∀ t : Fin (tLast.val + 1), t.val < 128) :
    ∑ t : Fin (tLast.val + 1), Cert.Spec.tileSum (X m c) (WQ m c) (WK m c) ⟨t.val, h t⟩ = Cert.Spec.total (X m c) (WQ m c) (WK m c) := by
  rw [← Cert.Spec.sum_tileSum]

/-- The array's one cell is the specification's total. -/
theorem final_cell (c : Dev nD) :
    ((dats m 0 c).arrAt 4 cfg0.N : Vec Ideal S1x1 .f32) (ix2 (0 : Fin 1) (0 : Fin 1)) = Cert.Spec.total (X m c) (WQ m c) (WK m c) := by
  rw [final4]
  unfold lastOut
  rw [acc_eq m c tLast.val tLast.isLt]
  exact sum_all m c _

end Cert.KernelIdeal.Hand

end
-- ==== Proof.KI.Launch.lean ====
import proofs.«165239_j82600811037329_1_alg».proof.Proof.KI.Runs

/-! The launch. The program is the kernel region followed by sixteen host operations. The input matrix is handed to
the region through TWO windows (the tile, and the eight-row block that starts the next tile), so its full share is
dealt between them in halves at the region's entry and put together again at its exit; the host operations that
follow read the accumulator's array and the two weight matrices, never the input matrix. The run concludes: the
three arguments are unchanged, and the two results are the host operations' values from the region's exit, where
the accumulator's array holds what the pipeline wrote back. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The shares at which the windows hold their arrays: the input matrix, read by two windows, in halves. -/
def qShare : Fin cfg0.W → PosShare TreeShare
  | ⟨0, _⟩ => fullShare.left
  | ⟨1, _⟩ => fullShare.right
  | _ => fullShare

/-- Core `c`'s buffers at the region's exit: the accumulator's array at `out`, every other buffer as launched. -/
def Wexit (c : Dev nD) (out : Buf (Elt F) ((cfg0.win 4).arr.view.loc (c.tc : Thread nD τ))) : Valuation τ sig (Elt F) := by
  classical
  exact Function.update (fun b => m (c, b)) (Proc.devRef .tc main_v0) out

theorem Wexit_v0 (c : Dev nD) (out : Buf (Elt F) ((cfg0.win 4).arr.view.loc (c.tc : Thread nD τ))) :
    Wexit m c out (Proc.devRef .tc main_v0) = out := by
  unfold Wexit
  exact Function.update_self _ _ _
theorem Wexit_arg1 (c : Dev nD) (out : Buf (Elt F) ((cfg0.win 4).arr.view.loc (c.tc : Thread nD τ))) :
    Wexit m c out (Proc.devRef .tc main_arg1) = m ((c.tc : Thread nD τ).loc main_arg1) := by
  unfold Wexit
  exact Function.update_of_ne (StableHlo.devRef_ne_of_ne (by decide)) _ _
theorem Wexit_arg2 (c : Dev nD) (out : Buf (Elt F) ((cfg0.win 4).arr.view.loc (c.tc : Thread nD τ))) :
    Wexit m c out (Proc.devRef .tc main_arg2) = m ((c.tc : Thread nD τ).loc main_arg2) := by
  unfold Wexit
  exact Function.update_of_ne (StableHlo.devRef_ne_of_ne (by decide)) _ _

section Arrays

variable {c : Dev nD} (dat : Dat τ (Elt F) Unit ℕ (UR sig nD τ) ℕ cfg0 c)

private theorem share_0 (hq : ∀ w, dat.q w = qShare w) : dat.share 0 = fullShare.left := by
  unfold Dat.share; rw [hq]; rfl
private theorem share_1 (hq : ∀ w, dat.q w = qShare w) : dat.share 1 = fullShare.right := by
  unfold Dat.share; rw [hq]; rfl
private theorem share_2 (hq : ∀ w, dat.q w = qShare w) : dat.share 2 = fullShare := by
  unfold Dat.share; rw [hq]; rfl
private theorem share_3 (hq : ∀ w, dat.q w = qShare w) : dat.share 3 = fullShare := by
  unfold Dat.share; rw [hq]; rfl
private theorem share_4 : dat.share 4 = fullShare := by
  unfold Dat.share; rfl

private theorem arrays_chain (hq : ∀ w, dat.q w = qShare w)
    (G : (w : Fin cfg0.W) → Buf (Elt F) ((cfg0.win w).arr.view.loc (c.tc : Thread nD τ))) :
    (dat.arrays G : sProp 𝕄)
      = iprop((((c.tc : Thread nD τ).loc main_arg0) ↦{fullShare.left} G 0) ∗ (((c.tc : Thread nD τ).loc main_arg0) ↦{fullShare.right} G 1)
          ∗ (((c.tc : Thread nD τ).loc main_arg1) ↦{fullShare} G 2) ∗ (((c.tc : Thread nD τ).loc main_arg2) ↦{fullShare} G 3)
          ∗ (((c.tc : Thread nD τ).loc main_v0) ↦{fullShare} G 4)) := by
  unfold Dat.arrays
  rw [bigSep_W0, share_0 dat hq, share_1 dat hq, share_2 dat hq, share_3 dat hq, share_4 dat,
    (arr_whole0 0).set_eq_univ, (arr_whole0 2).set_eq_univ, (arr_whole0 3).set_eq_univ, (arr_whole0 4).set_eq_univ]

end Arrays

section Split

variable {c : Dev nD} (dat : Dat τ (Elt F) Unit ℕ (UR sig nD τ) ℕ cfg0 c)

/-- The four buffers behind the five windows, one by one. -/
private theorem arrBufs0_eq (c : Dev nD) (W : (b : Ref sig .tc) → Buf (Elt F) ((c.tc : Thread nD τ).loc b)) :
    (Pipeline.arrBufs spec0 c W : sProp 𝕄)
      = iprop((((c.tc : Thread nD τ).loc main_arg0) ↦{fullShare} W main_arg0) ∗ (((c.tc : Thread nD τ).loc main_arg1) ↦{fullShare} W main_arg1)
          ∗ (((c.tc : Thread nD τ).loc main_arg2) ↦{fullShare} W main_arg2) ∗ (((c.tc : Thread nD τ).loc main_v0) ↦{fullShare} W main_v0)) := by
  unfold Pipeline.arrBufs
  exact bigSep_eq_bigSepL_of_eq [main_arg0, main_arg1, main_arg2, main_v0] (by decide) (by decide) _

/-- The dealing at the entry: the four buffers behind the five windows, whole, make the windows' arrays at the
    data's shares, the input matrix's full share split in its two halves. -/
private theorem hsplit0 (hq : ∀ w, dat.q w = qShare w) (hA : ∀ w, dat.A w = V m c (Pipeline.arrRef spec0 w)) :
    (Pipeline.arrBufs spec0 c (V m c) : sProp 𝕄) ⊢ dat.arrays (dat.arrAt · 0) := by
  have e0 : dat.arrAt 0 0 = V m c main_arg0 := hA 0
  have e1 : dat.arrAt 1 0 = V m c main_arg0 := hA 1
  have e2 : dat.arrAt 2 0 = V m c main_arg1 := hA 2
  have e3 : dat.arrAt 3 0 = V m c main_arg2 := hA 3
  have e4 : dat.arrAt 4 0 = V m c main_v0 := hA 4
  rw [arrays_chain dat hq, e0, e1, e2, e3, e4, arrBufs0_eq]
  iintro ⟨H0, H1, H2, H3⟩
  ihave H0' := (pointsTo_share (PosShare.mem_left_op_right fullShare)).1 $$ H0
  icases H0' with ⟨Hl, Hr⟩
  isplitl [Hl]; · iexact Hl
  isplitl [Hr]; · iexact Hr
  isplitl [H1]; · iexact H1
  isplitl [H2]; · iexact H2
  iexact H3

end Split

section Tail

/-- The unscoped buffers the host operations run within: every one but the input matrix. -/
private def tailList : List (Ref sig .tc) :=
  [main_arg1, main_arg2, main_v0, main_v1, main_cst, main_v2, main_v3, main_v4, main_v5, main_v6, main_cst_0, main_v7, main_v8,
    main_cst_1, main_v9, main_v10, main_v11, main_cst_2, main_v12]

/-- The same as a set of device buffers. -/
private def tailS : Finset (DevRef τ sig) := tailList.toFinset.map ⟨Proc.devRef (sig := sig) .tc, Proc.devRef_injective _⟩

private theorem mem_tailS {r : Ref sig .tc} (h : r ∈ tailList) : Proc.devRef (τ := τ) .tc r ∈ tailS :=
  Finset.mem_map_of_mem _ (List.mem_toFinset.mpr h)

/-- That set held at a valuation: the two weight matrices, the accumulator's array, and the sixteen buffers that
    pass the region by. -/
private theorem held_tailS (c : Dev nD) (W : Valuation τ sig (Elt F)) :
    (StableHlo.held (c.tc : Thread nD τ) tailS W : sProp 𝕄)
      = iprop((((c.tc : Thread nD τ).loc main_arg1) ↦{fullShare} W (Proc.devRef .tc main_arg1))
          ∗ (((c.tc : Thread nD τ).loc main_arg2) ↦{fullShare} W (Proc.devRef .tc main_arg2))
          ∗ (((c.tc : Thread nD τ).loc main_v0) ↦{fullShare} W (Proc.devRef .tc main_v0))
          ∗ Pipeline.unscopedRest spec0 c (fun b => W (Proc.devRef .tc b))) := by
  unfold StableHlo.held tailS
  rw [bigSep_map, bigSep_eq_bigSepL tailList (by decide), unscopedRest0_eq]
  rfl

/-- Every host operation touches buffers of that set only. -/
private theorem tail_sub : ∀ op ∈ (hostOps1 : List (HloOp τ sig (Elt F))), op.bufs ⊆ tailS := by
  intro op hop
  simp only [hostOps1, List.mem_cons, List.mem_nil_iff, or_false] at hop
  rcases hop with rfl | rfl | rfl | rfl | rfl | rfl | rfl | rfl | rfl | rfl | rfl | rfl | rfl | rfl | rfl | rfl
  all_goals
    simp only [StableHlo.nullary_bufs, StableHlo.unary_bufs, StableHlo.binary_bufs, StableHlo.reshape_bufs,
      Finset.insert_subset_iff, Finset.singleton_subset_iff]
    (repeat' apply And.intro) <;> exact mem_tailS (by decide)

/-- None allocates. -/
private theorem tail_fresh : ∀ op ∈ (hostOps1 : List (HloOp τ sig (Elt F))), op.fresh = ∅ := by
  intro op hop
  simp only [hostOps1, List.mem_cons, List.mem_nil_iff, or_false] at hop
  rcases hop with rfl | rfl | rfl | rfl | rfl | rfl | rfl | rfl | rfl | rfl | rfl | rfl | rfl | rfl | rfl | rfl <;> rfl

/-- None writes a weight matrix or the accumulator's array. -/
private theorem tail_keeps (r : Ref sig .tc) (hr : r = main_arg1 ∨ r = main_arg2 ∨ r = main_v0) :
    ∀ op ∈ (hostOps1 : List (HloOp τ sig (Elt F))), Proc.devRef (τ := τ) .tc r ∉ op.writes := by
  intro op hop
  simp only [hostOps1, List.mem_cons, List.mem_nil_iff, or_false] at hop
  rcases hr with rfl | rfl | rfl <;>
    rcases hop with rfl | rfl | rfl | rfl | rfl | rfl | rfl | rfl | rfl | rfl | rfl | rfl | rfl | rfl | rfl | rfl <;>
    simp only [StableHlo.nullary_writes, StableHlo.unary_writes, StableHlo.binary_writes, StableHlo.reshape_writes, Finset.mem_singleton] <;>
    exact StableHlo.devRef_ne_of_ne (by decide)

end Tail

section TailRun

variable {c : Dev nD} (dat : Dat τ (Elt F) Unit ℕ (UR sig nD τ) ℕ cfg0 c)

/-- Core `c`'s buffers after the host operations, run from the region's exit where the accumulator's array is `out`. -/
private abbrev afterV (c : Dev nD) (out : Buf (Elt F) ((cfg0.win 4).arr.view.loc (c.tc : Thread nD τ))) (b : Ref sig .tc) :
    Buf (Elt F) ((c.tc : Thread nD τ).loc b) :=
  StableHlo.after hostOps1 (Wexit m c out) (Proc.devRef .tc b)

/-- At the exit the buffers that pass the region by are as launched. -/
private theorem rest_Wexit (c : Dev nD) (out : Buf (Elt F) ((cfg0.win 4).arr.view.loc (c.tc : Thread nD τ))) :
    (Pipeline.unscopedRest spec0 c (fun b => Wexit m c out (Proc.devRef .tc b)) : sProp 𝕄) = Pipeline.unscopedRest spec0 c (V m c) := by
  classical
  unfold Pipeline.unscopedRest
  refine bigSep_congr fun b hb => ?_
  have hb' : b ≠ main_v0 := fun e =>
    (Finset.mem_sdiff.mp hb).2 (Finset.mem_image.mpr ⟨4, Finset.mem_univ _, (e.symm : Pipeline.arrRef spec0 4 = b)⟩)
  have hv : Wexit m c out (Proc.devRef .tc b) = V m c b := by
    unfold Wexit
    exact Function.update_of_ne (StableHlo.devRef_ne_of_ne hb') _ _
  beta_reduce
  rw [hv]

/-- THE HOST OPERATIONS after the region: holding the two halves of the input matrix aside, they run within the
    other unscoped buffers from the exit contents, and hand everything back, those buffers at their values after
    the sixteen operations, the weight matrices and the accumulator's array unwritten. -/
private theorem htail0 (hq : ∀ w, dat.q w = qShare w) (hA : ∀ w, dat.A w = V m c (Pipeline.arrRef spec0 w)) (Q' : PUnit → sProp 𝕄) :
    iprop((iprop(dat.arrays (dat.arrAt · cfg0.N) ∗ Pipeline.unscopedRest spec0 c (afterV m c (dat.arrAt 4 cfg0.N))) -∗ Q' ⟨⟩)
        ∗ boundary (c.tc : Thread nD τ) ∗ dat.arrays (dat.arrAt · cfg0.N) ∗ Pipeline.unscopedRest spec0 c (V m c))
      ⊢ wp frame (wpE (Pipeline.defs (fun q => Cfg.toPCfg (Val := Elt F) (cfgs q)) (defs₀ (F := F))) (Variants.lift Variants.none) (c.tc : Thread nD τ) none)
          Set.univ (Pipeline.chain ([hostOps1].map StableHlo.seq)) Q' := by
  classical
  have e0 : dat.arrAt 0 cfg0.N = V m c main_arg0 := (dat.arrAt_in 0 rfl _).trans (hA 0)
  have e1 : dat.arrAt 1 cfg0.N = V m c main_arg0 := (dat.arrAt_in 1 rfl _).trans (hA 1)
  have e2 : dat.arrAt 2 cfg0.N = V m c main_arg1 := (dat.arrAt_in 2 rfl _).trans (hA 2)
  have e3 : dat.arrAt 3 cfg0.N = V m c main_arg2 := (dat.arrAt_in 3 rfl _).trans (hA 3)
  have hW : (StableHlo.held (c.tc : Thread nD τ) tailS (Wexit m c (dat.arrAt 4 cfg0.N)) : sProp 𝕄)
      = iprop((((c.tc : Thread nD τ).loc main_arg1) ↦{fullShare} V m c main_arg1) ∗ (((c.tc : Thread nD τ).loc main_arg2) ↦{fullShare} V m c main_arg2)
          ∗ (((c.tc : Thread nD τ).loc main_v0) ↦{fullShare} dat.arrAt 4 cfg0.N) ∗ Pipeline.unscopedRest spec0 c (V m c)) := by
    rw [held_tailS, Wexit_arg1, Wexit_arg2, Wexit_v0, rest_Wexit]
  have hW' : (StableHlo.held (c.tc : Thread nD τ) tailS (StableHlo.after ([hostOps1] : List (List (HloOp τ sig (Elt F)))).flatten (Wexit m c (dat.arrAt 4 cfg0.N))) : sProp 𝕄)
      = iprop((((c.tc : Thread nD τ).loc main_arg1) ↦{fullShare} V m c main_arg1) ∗ (((c.tc : Thread nD τ).loc main_arg2) ↦{fullShare} V m c main_arg2)
          ∗ (((c.tc : Thread nD τ).loc main_v0) ↦{fullShare} dat.arrAt 4 cfg0.N)
          ∗ Pipeline.unscopedRest spec0 c (afterV m c (dat.arrAt 4 cfg0.N))) := by
    rw [List.flatten_cons, List.flatten_nil, List.append_nil, held_tailS,
      StableHlo.after_of_forall_not_mem _ _ (tail_keeps main_arg1 (.inl rfl)),
      StableHlo.after_of_forall_not_mem _ _ (tail_keeps main_arg2 (.inr (.inl rfl))),
      StableHlo.after_of_forall_not_mem _ _ (tail_keeps main_v0 (.inr (.inr rfl))), Wexit_arg1, Wexit_arg2, Wexit_v0]
  rw [arrays_chain dat hq, e0, e1, e2, e3, ← List.append_nil (([hostOps1] : List (List (HloOp τ sig (Elt F)))).map StableHlo.seq)]
  iintro ⟨Hk, Hb, ⟨Hl, Hr, H1, H2, H4⟩, HZ⟩
  ihave Hh := (Entails.of_eq hW.symm) $$ [H1 H2 H4 HZ]
  · isplitl [H1]; · iexact H1
    isplitl [H2]; · iexact H2
    isplitl [H4]; · iexact H4
    iexact HZ
  iapply (Pipeline.wp_seqs_then (fun q => Cfg.toPCfg (Val := Elt F) (cfgs q)) defs₀ Variants.none c tailS [] [hostOps1]
    (fun ops ho op h => by
      simp only [List.mem_cons, List.mem_nil_iff, or_false] at ho
      subst ho; exact tail_sub op h)
    (fun ops ho op h => by
      simp only [List.mem_cons, List.mem_nil_iff, or_false] at ho
      subst ho; exact tail_fresh op h)
    (Wexit m c (dat.arrAt 4 cfg0.N))) $$ [Hb Hh]
  · isplitl [Hb]; · iexact Hb
    iexact Hh
  iintro Hb
  rw [Pipeline.chain_nil, wp_pure, hW']
  imodintro
  icases Hb with ⟨-, H1, H2, H4, HZ⟩
  iapply Hk
  isplitr [HZ]
  · isplitl [Hl]; · iexact Hl
    isplitl [Hr]; · iexact Hr
    isplitl [H1]; · iexact H1
    isplitl [H2]; · iexact H2
    iexact H4
  · iexact HZ

end TailRun

/-- @main is the region followed by the host operations: it reduces to the region continued by them. -/
private theorem hmain0 : Pipeline.HMainK (Ix := Unit) (Name := ℕ) (U := UR sig nD τ) (Lvl := ℕ) cfgs 0 defs₀ Variants.none m (main (F := F)) (V m)
    (fun _ => Pipeline.chain ([hostOps1].map StableHlo.seq)) :=
  Pipeline.hmain_around cfgs 0 defs₀ Variants.none m main [] [hostOps1] trivial trivial main_chain

/-- THE RUN, for any proof data of the one pipeline whose arrays are the launch contents, whose shares are
    `qShare`, that owes nothing and keeps the plain invariant, given its body obligation. -/
theorem run_main_of (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (hA : ∀ c w, (dats 0 c).A w = V m c (Pipeline.arrRef spec0 w))
    (hq : ∀ c w, (dats 0 c).q w = qShare w)
    (howed : ∀ c t, (dats 0 c).owed t = 0)
    (hΦ : ∀ c t, (dats 0 c).Φ t = Pipeline.ΦA spec0 c) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_v2)
          = StableHlo.after hostOps1 (Wexit m c ((dats 0 c).arrAt 4 cfg0.N)) (Proc.devRef .tc main_v2)
      ∧ r.2.mem ((c.tc : Thread nD τ).loc main_v12)
          = StableHlo.after hostOps1 (Wexit m c ((dats 0 c).arrAt 4 cfg0.N)) (Proc.devRef .tc main_v12)) := by
  classical
  exact Pipeline.θ_run_region_pf_tail (fun q => Cfg.toPCfg (Val := Elt F) (cfgs q)) (fun q => (cfgs q).toPCfg_adm) dats () cellOf_inj 0
    winFacts₀0 (Pipeline.OwnSemFacts.none spec0) (Pipeline.PreFacts.none _) emb₁ defs₀ Variants.none m ρ main
    (fun _ => Pipeline.chain ([hostOps1].map StableHlo.seq)) hbody block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (V := fun c => V m c) (hmain := hmain0 m)
    (hsplit := fun c => hsplit0 m (dats 0 c) (hq c) (hA c))
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (afterV m c ((dats 0 c).arrAt 4 cfg0.N)))
    (hX := fun c => by
      rw [Pipeline.unscopedRestP_none]
      iintro ⟨HU, -, -, -, Hp, -⟩; imodintro
      isplitl [Hp]; · iexists _; iexact Hp
      iexact HU)
    (hin := fun c => by
      rw [hΦ]; unfold Pipeline.ΦA
      iintro ⟨Hp, -, Hr⟩
      isplitl [Hr]; · iexact Hr
      iexact Hp)
    (hout := fun c => by
      rw [hΦ, Pipeline.ownSems0_none]; unfold Pipeline.ΦA
      iintro ⟨Hr, Hp⟩
      isplitl [Hp]; · iexact Hp
      isplitr; · iempintro
      iexact Hr)
    (htail := fun c Q' => htail0 m (dats 0 c) (hq c) (hA c) Q')
    (QY := fun c s => ∀ b ∈ (Finset.univ.filter fun b : Ref sig .tc => ¬ b.isScoped) \ Finset.univ.image (Pipeline.arrRef spec0),
      s.mem ((c.tc : Thread nD τ).loc b) = afterV m c ((dats 0 c).arrAt 4 cfg0.N) b)
    (hY := fun c s' => by
      iintro ⟨-, HU, HSI⟩
      unfold Pipeline.unscopedRest
      imodintro
      iapply (pointsTo_read_all ((Finset.univ.filter fun b : Ref sig .tc => ¬ b.isScoped) \ Finset.univ.image (Pipeline.arrRef spec0))
        (fun b => (c.tc : Thread nD τ).loc b) (afterV m c ((dats 0 c).arrAt 4 cfg0.N)) s')
      isplitl [HU] <;> iassumption)
    (hQ := fun s h c => by
      obtain ⟨harr, -, hrest⟩ := h c
      refine ⟨?_, ?_, ?_, ?_, ?_⟩
      · exact (harr 0).trans (((dats 0 c).arrAt_in 0 rfl _).trans (hA c 0))
      · exact (harr 2).trans (((dats 0 c).arrAt_in 2 rfl _).trans (hA c 2))
      · exact (harr 3).trans (((dats 0 c).arrAt_in 3 rfl _).trans (hA c 3))
      · exact hrest main_v2 (by decide)
      · exact hrest main_v12 (by decide))

end Cert.KernelIdeal.Hand

end
-- ==== Proof.RefTotal.lean ====
import proofs.«165239_j82600811037329_1_alg».proof.Proof.Gen.ReferenceIdeal.Read
import proofs.«165239_j82600811037329_1_alg».proof.Proof.Spec

/-! The reference's sum of squares is the specification's: stage by stage the reference forms the two products, the
softplus, the row sums, the shifted difference and its square, and adds them all up from zero. -/

noncomputable section

open scoped BigOperators

namespace Cert.RefTotal

open Cert.ReferenceIdeal Cert.ReferenceIdeal.Read Idealize.ShloMosaic Idealize.ShloMosaic.ValueIdx

section Stages

variable (x0 : (⟨S262144x128, .f32⟩ : BufTy).Contents (Elt Ideal)) (x1 x2 : (⟨S128x128, .f32⟩ : BufTy).Contents (Elt Ideal))

/-! Where each product reads its operands: entry `(s, n)` of a product reads row `s` of the left factor and column `n`
of the right one, at the summation index `k`; the transpose swaps the two coordinates. -/

theorem lidx_v2 (s : Fin 262144) (n k : Fin 128) : lidx_main_v2 (ix2 s n) k = ix2 s k :=
  funext fun a => Fin.ext (by match a with | ⟨0, _⟩ => rfl | ⟨1, _⟩ => rfl)
theorem ridx_v2 (s : Fin 262144) (n k : Fin 128) : ridx_main_v2 (ix2 s n) k = ix2 k n :=
  funext fun a => Fin.ext (by match a with | ⟨0, _⟩ => rfl | ⟨1, _⟩ => rfl)
theorem lidx_v1 (s : Fin 262144) (n k : Fin 128) : lidx_main_v1 (ix2 s n) k = ix2 s k :=
  funext fun a => Fin.ext (by match a with | ⟨0, _⟩ => rfl | ⟨1, _⟩ => rfl)
theorem ridx_v1 (s : Fin 262144) (n k : Fin 128) : ridx_main_v1 (ix2 s n) k = ix2 k n :=
  funext fun a => Fin.ext (by match a with | ⟨0, _⟩ => rfl | ⟨1, _⟩ => rfl)
theorem idx_v0 (a b : Fin 128) : idx_main_v0 (ix2 a b) = ix2 b a :=
  funext fun a => Fin.ext (by match a with | ⟨0, _⟩ => rfl | ⟨1, _⟩ => rfl)

/-- The first product is `keys`: `Σ_j X[s, j] · WK[k, j]`, the second matrix entering transposed. -/
theorem v1_apply (s : Fin 262144) (k : Fin 128) :
    val_main_v1 (F := Ideal) x0 x2 (ix2 s k) = Cert.Spec.keys x0 x2 s k := by
  rw [val_main_v1_apply]
  unfold Cert.Spec.keys
  refine Finset.sum_congr rfl fun j _ => ?_
  rw [val_main_v0_apply, lidx_v1, ridx_v1, idx_v0]

/-- The second product is `logit`: `Σ_k keys[s, k] · WQ[k, n]`. -/
theorem v2_apply (s : Fin 262144) (n : Fin 128) :
    val_main_v2 (F := Ideal) x0 x1 x2 (ix2 s n) = Cert.Spec.logit x0 x1 x2 s n := by
  rw [val_main_v2_apply]
  unfold Cert.Spec.logit
  refine Finset.sum_congr rfl fun k _ => ?_
  rw [lidx_v2, ridx_v2, v1_apply]

/-- Comparing a number with itself for inequality says "no". -/
theorem cmp_une_self (d : EReal) : Ideal.cmp .une d d = 0#1 := by
  unfold Ideal.cmp
  simp

/-- The softplus stage: with `d = z − 0 = z`, the test `d ≠ d` fails, so the choice takes
    `max z 0 + log (1 + e^(−|d|))`, and `|d|` is `max d (−d)`. -/
theorem v3_apply (s : Fin 262144) (n : Fin 128) :
    val_main_v3 (F := Ideal) x0 x1 x2 (ix2 s n) = Cert.Spec.sp (Cert.Spec.logit x0 x1 x2 s n) := by
  simp only [val_main_v3_apply, val_main_call0_v4_apply, val_main_call0_v11_apply, val_main_call0_v1_apply,
    val_main_call0_v10_apply, val_main_call0_v9_apply, val_main_call0_v8_apply, val_main_call0_v7_apply,
    val_main_call0_v3_apply, val_main_call0_v0_apply, val_main_call0_v2_apply, val_main_call0_cst_apply, v2_apply,
    Ideal.ofBits_def, Ideal.addf_def, Ideal.subf_def, Ideal.maximumf_def, Ideal.hostNegf_def, Ideal.hostAbsf_def,
    Ideal.negf_def, Ideal.absf_def, Ideal.hostUnary_exp_def, Ideal.hostUnary_log1p_def, Ideal.cmpf_def,
    Ideal.ofBits_zero_f32, sub_zero, cmp_une_self, select_zero]
  rfl

/-- The row sum, spread along the columns, reads row `s` of `X` whatever the column. -/
theorem idx_v4 (s : Fin 262144) (n k : Fin 128) : idx_main_v4 (idx_main_v5 (idx_main_v6 (ix2 s n))) k = ix2 s k :=
  funext fun a => Fin.ext (by match a with | ⟨0, _⟩ => rfl | ⟨1, _⟩ => rfl)

/-- The spread row sum is `rowsum`: `0 + Σ_j X[s, j]`. -/
theorem v6_apply (s : Fin 262144) (n : Fin 128) :
    val_main_v6 (F := Ideal) x0 (ix2 s n) = Cert.Spec.rowsum x0 s := by
  rw [val_main_v6_apply, val_main_v5_apply, val_main_v4_apply, val_main_cst_apply, Ideal.ofBits_def,
    Ideal.ofBits_zero_f32, zero_add]
  unfold Cert.Spec.rowsum
  refine Finset.sum_congr rfl fun k _ => ?_
  rw [idx_v4]

/-- The product of the softplus with the row sum is `out[s, n]`. -/
theorem v7_apply (s : Fin 262144) (n : Fin 128) :
    val_main_v7 (F := Ideal) x0 x1 x2 (ix2 s n) = Cert.Spec.outv x0 x1 x2 s n := by
  rw [val_main_v7_apply, Ideal.mulf_def, v3_apply, v6_apply]
  rfl

/-- The slice from row 0 reads row `s`; the slice from row 1 reads row `s + 1`. -/
theorem idx_v8 (s : Fin 262143) (n : Fin 128) :
    idx_main_v8 (ix2 s n) = ix2 ⟨s.val, by have := s.isLt; omega⟩ n :=
  funext fun a => Fin.ext (by match a with | ⟨0, _⟩ => rfl | ⟨1, _⟩ => rfl)
theorem idx_v9 (s : Fin 262143) (n : Fin 128) :
    idx_main_v9 (ix2 s n) = ix2 ⟨s.val + 1, by have := s.isLt; omega⟩ n :=
  funext fun a => Fin.ext (by match a with | ⟨0, _⟩ => exact Nat.add_comm 1 s.val | ⟨1, _⟩ => rfl)

/-- The squared difference `(out[s, n] − X[s + 1, n])²` for a row `s` that has a successor. -/
theorem v11_apply (s : Fin 262143) (n : Fin 128) :
    val_main_v11 (F := Ideal) x0 x1 x2 (ix2 s n) = Cert.Spec.sqd x0 x1 x2 s n := by
  rw [val_main_v11_apply, val_main_v10_apply, val_main_v8_apply, val_main_v9_apply, Ideal.mulf_def, Ideal.subf_def,
    idx_v8, idx_v9, v7_apply]
  rfl

end Stages

/-- The reference's reduced sum (the stage before the final division) is the specification's total; the second
    argument is the matrix multiplied last, the third the one multiplied first (transposed). -/
theorem v12_eq_total (x0 : (⟨S262144x128, .f32⟩ : BufTy).Contents (Elt Ideal)) (x1 x2 : (⟨S128x128, .f32⟩ : BufTy).Contents (Elt Ideal)) (i : S_.Idx) :
    val_main_v12 (F := Ideal) x0 x1 x2 i = Cert.Spec.total x0 x1 x2 := by
  -- the sum starts from zero and runs over all pairs (row, column), which is the double sum over rows and columns
  rw [val_main_v12_apply, val_main_cst_0_apply, Ideal.ofBits_def, Ideal.ofBits_zero_f32, zero_add]
  refine (sum_idx2 (n0 := 262143) (n1 := 128) _).trans ?_
  unfold Cert.Spec.total
  refine Finset.sum_congr rfl fun s _ => Finset.sum_congr rfl fun n _ => ?_
  exact v11_apply x0 x1 x2 s n

end Cert.RefTotal

end
-- ==== Proof.KI.Tail.lean ====
import proofs.«165239_j82600811037329_1_alg».proof.Proof.KI.Final
import proofs.«165239_j82600811037329_1_alg».proof.Proof.KI.Launch
import proofs.«165239_j82600811037329_1_alg».proof.Proof.RefTotal
import Idealize.ShloMosaic.Lib.StableHlo.Run

/-! The two results, on the extended reals. After the region the host operations reshape the accumulator's one cell
to a scalar and divide it by 33554304; the reference divides its own total by the same number, and the totals are
the specification's on both sides. The second result is the same sixteen host operations of the two weight
matrices in both programs. -/

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ)

/-- The first result is the reference's: the total divided by the number of summed entries. -/
theorem loss_eq (c : Dev nD) :
    StableHlo.after (hostOps1 (F := Ideal)) (Wexit m c ((dats m 0 c).arrAt 4 cfg0.N)) (Proc.devRef .tc main_v2)
      = Cert.ReferenceIdeal.Read.val_main_v13 (F := Ideal) (X m c) (WQ m c) (WK m c) := by
  dsimp only [hostOps1]
  after_results
  rw [Wexit_v0]
  funext i
  rw [Cert.ReferenceIdeal.Read.val_main_v13_apply, Cert.RefTotal.v12_eq_total, ← final_cell m c]
  show FloatOps.hostDivf (F := Ideal) (φ := .f32)
      (shapeCast (s := S1x1) S_ ((dats m 0 c).arrAt 4 cfg0.N : Vec Ideal S1x1 .f32) shapeCasts_S1x1_S_ i) (FloatOps.ofBits .f32 0x4BFFFFC0#32) = _
  refine congrArg₂ FloatOps.hostDivf ?_ rfl
  refine shapeCast_apply (s := S1x1) (t := S_) _ _ _ _ ?_
  have h1 : (S1x1.rowMajor (ix2 (0 : Fin 1) (0 : Fin 1))).val < 1 := (S1x1.rowMajor _).isLt
  have h2 : (S_.rowMajor i).val < 1 := (S_.rowMajor i).isLt
  omega

/-- The second result is the reference's: the same host operations of the same two matrices. -/
theorem l1_eq (c : Dev nD) :
    StableHlo.after (hostOps1 (F := Ideal)) (Wexit m c ((dats m 0 c).arrAt 4 cfg0.N)) (Proc.devRef .tc main_v12)
      = Cert.ReferenceIdeal.Read.val_main_v23 (F := Ideal) (WQ m c) (WK m c) := by
  dsimp only [hostOps1]
  after_results
  rw [Wexit_arg1, Wexit_arg2]
  rfl

end Cert.KernelIdeal.Hand

end
-- ==== Proof.lean ====
import proofs.«165239_j82600811037329_1_alg».proof.Defs
import proofs.«165239_j82600811037329_1_alg».proof.Proof.Gen.Kernel
import proofs.«165239_j82600811037329_1_alg».proof.Proof.Gen.KernelIdeal
import proofs.«165239_j82600811037329_1_alg».proof.Proof.Gen.ReferenceIdeal
import proofs.«165239_j82600811037329_1_alg».proof.Proof.Gen.Pre_finite_inputs
import proofs.«165239_j82600811037329_1_alg».proof.Proof.Gen.ReferenceIdeal.Read
import proofs.«165239_j82600811037329_1_alg».proof.Proof.K.Oblig
import proofs.«165239_j82600811037329_1_alg».proof.Proof.K.Launch
import proofs.«165239_j82600811037329_1_alg».proof.Proof.KI.Oblig
import proofs.«165239_j82600811037329_1_alg».proof.Proof.KI.Tail

/-! The certificate. The kernel walks the input matrix in 128 tiles of 2048 rows, adding to a 1×1 accumulator each
tile's sum of squared differences between `softplus(X·WKᵀ·WQ) · rowsum` and the next row (the matrix's last row,
which has no successor, masked to zero); the host then divides by the number of summed entries. The reference forms
the same differences for the first 262143 rows at once, sums and divides. On the extended reals the two sums are
the same terms grouped differently, with 128 zeros added on the kernel's side; only commutativity and
associativity of addition are used, so the precondition is never opened. The second result is the same sixteen
host operations of the two weight matrices in both programs.

The frames: the kernel region's body runs at every tile (two control cases: the first tile resets the accumulator);
the input matrix, handed to the region through two windows, is dealt between them in halves and rejoined at the
region's exit; the host operations after the region run within the other buffers. The reference is a host program:
its frame is its run with the results dropped. No operation was rewritten by the idealization, so nothing is owed
for it. -/

noncomputable section

namespace Cert.Proof

open Idealize.ShloMosaic Idealize.ShloMosaic.TcCoe Idealize.SL.Sem

/-- The word-level program's proof data hold the arrays at the launch's shares. -/
theorem shares_k (m : (ℓ : Loc Cert.Kernel.nD Cert.Kernel.τ Cert.Kernel.sig) → Buf (Elt Bits) ℓ) (c : Dev Cert.Kernel.nD)
    (w : Fin Cert.Kernel.cfg0.W) : (Cert.Kernel.Hand.dats m 0 c).q w = Cert.Kernel.Hand.qShare w := by
  match w with
  | ⟨0, _⟩ => rfl | ⟨1, _⟩ => rfl | ⟨2, _⟩ => rfl | ⟨3, _⟩ => rfl | ⟨4, _⟩ => rfl

/-- So do the idealized program's. -/
theorem shares_ki (m : (ℓ : Loc Cert.KernelIdeal.nD Cert.KernelIdeal.τ Cert.KernelIdeal.sig) → Buf (Elt Ideal) ℓ) (c : Dev Cert.KernelIdeal.nD)
    (w : Fin Cert.KernelIdeal.cfg0.W) : (Cert.KernelIdeal.Hand.dats m 0 c).q w = Cert.KernelIdeal.Hand.qShare w := by
  match w with
  | ⟨0, _⟩ => rfl | ⟨1, _⟩ => rfl | ⟨2, _⟩ => rfl | ⟨3, _⟩ => rfl | ⟨4, _⟩ => rfl

/-- The word-level program runs and leaves its arguments unchanged. -/
theorem frame_k : Cert.frame_Kernel := fun m ρ _ =>
  (θ_run (Cert.Kernel.defs (F := Bits)) _ _).mono (fun _ h c => ⟨(h c).1, (h c).2.1, (h c).2.2.1⟩)
    (Cert.Kernel.Hand.run_main_of m ρ (Cert.Kernel.Hand.dats m) (fun c => (Cert.Kernel.Hand.body_obligation m c).loose)
      (Cert.Kernel.Hand.A_eq m) (shares_k m) (fun _ _ => rfl) (fun _ _ => rfl))

/-- The idealized program's run, with both results named. -/
theorem run_ki (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_v2)
          = StableHlo.after (Cert.KernelIdeal.Gen.hostOps1 (F := Ideal)) (Cert.KernelIdeal.Hand.Wexit m c ((Cert.KernelIdeal.Hand.dats m 0 c).arrAt 4 Cert.KernelIdeal.cfg0.N)) (Proc.devRef .tc Cert.KernelIdeal.main_v2)
      ∧ r.2.mem ((c.tc : Thread Cert.KernelIdeal.nD Cert.KernelIdeal.τ).loc Cert.KernelIdeal.main_v12)
          = StableHlo.after (Cert.KernelIdeal.Gen.hostOps1 (F := Ideal)) (Cert.KernelIdeal.Hand.Wexit m c ((Cert.KernelIdeal.Hand.dats m 0 c).arrAt 4 Cert.KernelIdeal.cfg0.N)) (Proc.devRef .tc Cert.KernelIdeal.main_v12)) :=
  Cert.KernelIdeal.Hand.run_main_of m ρ (Cert.KernelIdeal.Hand.dats m) (fun c => (Cert.KernelIdeal.Hand.body_obligation m c).loose)
    (Cert.KernelIdeal.Hand.A_eq m) (shares_ki m) (fun _ _ => rfl) (fun _ _ => rfl)

/-- The idealized program runs and leaves its arguments unchanged. -/
theorem frame_ki : Cert.frame_KernelIdeal := fun m ρ _ =>
  (θ_run (Cert.KernelIdeal.defs (F := Ideal)) _ _).mono (fun _ h c => ⟨(h c).1, (h c).2.1, (h c).2.2.1⟩) (run_ki m ρ)

/-- The reference runs and leaves its arguments unchanged: its run with the results dropped. -/
theorem frame_ri : Cert.frame_ReferenceIdeal := fun m ρ _ =>
  (θ_run (Cert.ReferenceIdeal.defs (F := Ideal)) _ _).mono (fun _ h c => (h c).2.2) (Cert.ReferenceIdeal.Value.run (F := Ideal) m ρ)

/-- On the extended reals both programs end with the reference's two stages of the arguments: the total divided
    by the number of summed entries, and the host chain of the two weight matrices. -/
theorem algebraic : Cert.algebraic_KernelIdeal_ReferenceIdeal := by
  intro m ρ m' ρ' _ hagree
  refine ⟨fun c => Cert.ReferenceIdeal.Read.val_main_v13 (F := Ideal) (Cert.KernelIdeal.Hand.X m c) (Cert.KernelIdeal.Hand.WQ m c) (Cert.KernelIdeal.Hand.WK m c),
    fun c => Cert.ReferenceIdeal.Read.val_main_v23 (F := Ideal) (Cert.KernelIdeal.Hand.WQ m c) (Cert.KernelIdeal.Hand.WK m c), ?_, ?_⟩
  · exact (θ_run (Cert.KernelIdeal.defs (F := Ideal)) _ _).mono
      (fun _ h c => ⟨(h c).2.2.2.1.trans (Cert.KernelIdeal.Hand.loss_eq m c), (h c).2.2.2.2.trans (Cert.KernelIdeal.Hand.l1_eq m c),
        (h c).1, (h c).2.1, (h c).2.2.1⟩) (run_ki m ρ)
  · refine (θ_run (Cert.ReferenceIdeal.defs (F := Ideal)) _ _).mono (fun _ h c => ⟨?_, ?_, (h c).2.2⟩)
      (Cert.ReferenceIdeal.Value.run (F := Ideal) m' ρ')
    · rw [(h c).1, Cert.ReferenceIdeal.Read.val_main_v13_eq, (hagree c).1, (hagree c).2.1, (hagree c).2.2]
    · rw [(h c).2.1, Cert.ReferenceIdeal.Read.val_main_v23_eq, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
